-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8x128x256 : Shape := ⟨4, ![64, 8, 128, 256]⟩
abbrev S128x256 : Shape := ⟨2, ![128, 256]⟩
abbrev S128x128 : Shape := ⟨2, ![128, 128]⟩
abbrev S128 : Shape := ⟨1, ![128]⟩
abbrev S_ : Shape := ⟨0, ![]⟩

class Facts : Prop where
  bcast_S_S64x8x128x256 : S_.BroadcastsInDim S64x8x128x256 (![] : Fin 0 → Fin S64x8x128x256.rank)
  reducesTo_S64x8x128x256_S_d0_1_2_3 : S64x8x128x256.ReducesTo [0, 1, 2, 3] S_
  h_S_ : 0 < S_.numel
  bcast_S_S128x256 : S_.BroadcastsInDim S128x256 (![] : Fin 0 → Fin S128x256.rank)
  reducesTo_S128x256_S_d0_1 : S128x256.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128x128 .f32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S64x8x128x256 .f32) (main_arg1 : FVec F S128x256 .f32) (main_arg2 : FVec F S128x256 .f32) (main_arg3 : FVec F S128x128 .f32) (main_arg4 : FVec F S128 .f32) (main_arg5 : FVec F S128x128 .f32) (main_arg6 : FVec F S128 .f32) : IVec S_ 1 :=
  let main_v0 : FVec F S64x8x128x256 .f32 := Host.absf main_arg0
  let main_cst : FVec F S_ .f32 := constant S_ .f32 0x7F800000#32
  let main_v1 : FVec F S64x8x128x256 .f32 := broadcastInDim S64x8x128x256 ![] bcast_S_S64x8x128x256 main_cst
  let main_v2 : IVec S64x8x128x256 1 := cmpf .olt main_v0 main_v1
  let main_c : IVec S_ 1 := constantI S_ 1 1#1
  let main_v3 : IVec S_ 1 := (fun x v => Host.reduce IntOp.andi x v reducesTo_S64x8x128x256_S_d0_1_2_3 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S64x8x128x256 : Shape := ⟨4, ![64, 8, 128, 256]⟩
abbrev S128x256 : Shape := ⟨2, ![128, 256]⟩
abbrev S128x128 : Shape := ⟨2, ![128, 128]⟩
abbrev S128 : Shape := ⟨1, ![128]⟩
abbrev S512x128x256 : Shape := ⟨3, ![512, 128, 256]⟩
abbrev S_ : Shape := ⟨0, ![]⟩
abbrev S128x1 : Shape := ⟨2, ![128, 1]⟩
abbrev S16x128x256 : Shape := ⟨3, ![16, 128, 256]⟩
abbrev S1x128x256 : Shape := ⟨3, ![1, 128, 256]⟩
abbrev S1 : Shape := ⟨1, ![1]⟩
abbrev S1x1 : Shape := ⟨2, ![1, 1]⟩

abbrev nBuf : Space → Nat
  | .hbm => 32
  | .vmem => 10
  | .smem => 0
  | _ => 0

abbrev bufTy : (tb : Table) → Fin (tcTables nBuf tb) → BufTy
  | .hbm, ⟨0, _⟩ => ⟨S64x8x128x256, .f32⟩
  | .hbm, ⟨1, _⟩ => ⟨S128x256, .f32⟩
  | .hbm, ⟨2, _⟩ => ⟨S128x256, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S512x128x256, .f32⟩
  | .hbm, ⟨8, _⟩ => ⟨S128x128, .i32⟩
  | .hbm, ⟨9, _⟩ => ⟨S_, .i32⟩
  | .hbm, ⟨10, _⟩ => ⟨S128x128, .i32⟩
  | .hbm, ⟨11, _⟩ => ⟨S128x128, .i32⟩
  | .hbm, ⟨12, _⟩ => ⟨S128x128, .i32⟩
  | .hbm, ⟨13, _⟩ => ⟨S128x128, .i1⟩
  | .hbm, ⟨14, _⟩ => ⟨S_, .f32⟩
  | .hbm, ⟨15, _⟩ => ⟨S128x128, .f32⟩
  | .hbm, ⟨16, _⟩ => ⟨S128x128, .f32⟩
  | .hbm, ⟨17, _⟩ => ⟨S128x128, .bf16⟩
  | .hbm, ⟨18, _⟩ => ⟨S128x128, .i32⟩
  | .hbm, ⟨19, _⟩ => ⟨S_, .i32⟩
  | .hbm, ⟨20, _⟩ => ⟨S128x128, .i32⟩
  | .hbm, ⟨21, _⟩ => ⟨S128x128, .i32⟩
  | .hbm, ⟨22, _⟩ => ⟨S128x128, .i32⟩
  | .hbm, ⟨23, _⟩ => ⟨S128x128, .i1⟩
  | .hbm, ⟨24, _⟩ => ⟨S_, .f32⟩
  | .hbm, ⟨25, _⟩ => ⟨S128x128, .f32⟩
  | .hbm, ⟨26, _⟩ => ⟨S128x128, .f32⟩
  | .hbm, ⟨27, _⟩ => ⟨S128x128, .bf16⟩
  | .hbm, ⟨28, _⟩ => ⟨S128x1, .f32⟩
  | .hbm, ⟨29, _⟩ => ⟨S128x1, .f32⟩
  | .hbm, ⟨30, _⟩ => ⟨S512x128x256, .f32⟩
  | .hbm, ⟨31, _⟩ => ⟨S64x8x128x256, .f32⟩
  | .local _ .vmem, ⟨0, _⟩ => ⟨S16x128x256, .f32⟩
  | .local _ .vmem, ⟨1, _⟩ => ⟨S16x128x256, .f32⟩
  | .local _ .vmem, ⟨2, _⟩ => ⟨S128x256, .f32⟩
  | .local _ .vmem, ⟨3, _⟩ => ⟨S128x256, .f32⟩
  | .local _ .vmem, ⟨4, _⟩ => ⟨S128x128, .bf16⟩
  | .local _ .vmem, ⟨5, _⟩ => ⟨S128x1, .f32⟩
  | .local _ .vmem, ⟨6, _⟩ => ⟨S128x128, .bf16⟩
  | .local _ .vmem, ⟨7, _⟩ => ⟨S128x1, .f32⟩
  | .local _ .vmem, ⟨8, _⟩ => ⟨S16x128x256, .f32⟩
  | .local _ .vmem, ⟨9, _⟩ => ⟨S16x128x256, .f32⟩
  | _, _ => ⟨S64x8x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_cst : Ref sig .tc := ⟨.hbm, 14, rfl⟩
abbrev main_call0_v5 : Ref sig .tc := ⟨.hbm, 15, rfl⟩
abbrev main_v1 : Ref sig .tc := ⟨.hbm, 16, rfl⟩
abbrev main_v2 : Ref sig .tc := ⟨.hbm, 17, rfl⟩
abbrev main_call1_v0 : Ref sig .tc := ⟨.hbm, 18, rfl⟩
abbrev main_call1_c : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_cst : Ref sig .tc := ⟨.hbm, 24, rfl⟩
abbrev main_call1_v5 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S16x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S64x8x128x256_S512x128x256 : S64x8x128x256.ShapeCasts S512x128x256
  bcast_S_S128x128 : S_.BroadcastsInDim S128x128 (![] : Fin 0 → Fin S128x128.rank)
  bitsLt_bf16_f32 : FTy.bits .bf16 < FTy.bits .f32
  shapeCasts_S128_S128x1 : S128.ShapeCasts S128x1
  inb_S128x256_S128x256_0_0 : ∀ a, (![0, 0] : Fin 2 → Nat) a + S128x256.size a ≤ S128x256.size a
  h_S128x256 : 0 < S128x256.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S16x128x256_S1x128x256_0_0_0 : ∀ a, (![0, 0, 0] : Fin 3 → Nat) a + S1x128x256.size a ≤ S16x128x256.size a
  h_S1x128x256 : 0 < S1x128x256.numel
  shapeCasts_S1x128x256_S128x256 : S1x128x256.ShapeCasts S128x256
  reduces_S128x256_S128 : S128x256.Reduces [1] S128
  reduces_S128x1_S1 : S128x1.Reduces [0] S1
  shapeCasts_S1_S1x1 : S1.ShapeCasts S1x1
  broadcasts_S1x1_S128x256 : S1x1.Broadcasts S128x256
  broadcasts_S128x1_S128x256 : S128x1.Broadcasts S128x256
  shapeCasts_S128x256_S1x128x256 : S128x256.ShapeCasts S1x128x256
  inb_S16x128x256_S1x128x256_1_0_0 : ∀ a, (![1, 0, 0] : Fin 3 → Nat) a + S1x128x256.size a ≤ S16x128x256.size a
  inb_S16x128x256_S1x128x256_2_0_0 : ∀ a, (![2, 0, 0] : Fin 3 → Nat) a + S1x128x256.size a ≤ S16x128x256.size a
  inb_S16x128x256_S1x128x256_3_0_0 : ∀ a, (![3, 0, 0] : Fin 3 → Nat) a + S1x128x256.size a ≤ S16x128x256.size a
  inb_S16x128x256_S1x128x256_4_0_0 : ∀ a, (![4, 0, 0] : Fin 3 → Nat) a + S1x128x256.size a ≤ S16x128x256.size a
  inb_S16x128x256_S1x128x256_5_0_0 : ∀ a, (![5, 0, 0] : Fin 3 → Nat) a + S1x128x256.size a ≤ S16x128x256.size a
  inb_S16x128x256_S1x128x256_6_0_0 : ∀ a, (![6, 0, 0] : Fin 3 → Nat) a + S1x128x256.size a ≤ S16x128x256.size a
  inb_S16x128x256_S1x128x256_7_0_0 : ∀ a, (![7, 0, 0] : Fin 3 → Nat) a + S1x128x256.size a ≤ S16x128x256.size a
  inb_S16x128x256_S1x128x256_8_0_0 : ∀ a, (![8, 0, 0] : Fin 3 → Nat) a + S1x128x256.size a ≤ S16x128x256.size a
  inb_S16x128x256_S1x128x256_9_0_0 : ∀ a, (![9, 0, 0] : Fin 3 → Nat) a + S1x128x256.size a ≤ S16x128x256.size a
  inb_S16x128x256_S1x128x256_10_0_0 : ∀ a, (![10, 0, 0] : Fin 3 → Nat) a + S1x128x256.size a ≤ S16x128x256.size a
  inb_S16x128x256_S1x128x256_11_0_0 : ∀ a, (![11, 0, 0] : Fin 3 → Nat) a + S1x128x256.size a ≤ S16x128x256.size a
  inb_S16x128x256_S1x128x256_12_0_0 : ∀ a, (![12, 0, 0] : Fin 3 → Nat) a + S1x128x256.size a ≤ S16x128x256.size a
  inb_S16x128x256_S1x128x256_13_0_0 : ∀ a, (![13, 0, 0] : Fin 3 → Nat) a + S1x128x256.size a ≤ S16x128x256.size a
  inb_S16x128x256_S1x128x256_14_0_0 : ∀ a, (![14, 0, 0] : Fin 3 → Nat) a + S1x128x256.size a ≤ S16x128x256.size a
  inb_S16x128x256_S1x128x256_15_0_0 : ∀ a, (![15, 0, 0] : Fin 3 → Nat) a + S1x128x256.size a ≤ S16x128x256.size a
  shapeCasts_S512x128x256_S64x8x128x256 : S512x128x256.ShapeCasts S64x8x128x256
  dot_S128x128_S128x256_S128x256_1_0_0_1_n_n_wf : DotDims.WF S128x128 S128x256 S128x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x128x256.size a ≤ S512x128x256.size a
  hwx0_0 : ∀ i : grid0.Coords, EltTy.bits .f32 = 32 ∨ (Rect.block (s := S512x128x256) S16x128x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S128x1.size a
  hwx0_4 : ∀ i : grid0.Coords, EltTy.bits .f32 = 32 ∨ (Rect.block (s := S128x1) S128x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x1.size a ≤ S128x1.size a
  hwx0_6 : ∀ i : grid0.Coords, EltTy.bits .f32 = 32 ∨ (Rect.block (s := S128x1) S128x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S16x128x256.size a ≤ S512x128x256.size a
  hwx0_7 : ∀ i : grid0.Coords, EltTy.bits .f32 = 32 ∨ (Rect.block (s := S512x128x256) S16x128x256.size (cc0_transform_7 i) (hinb0_7 i)).WholeWords (EltTy.packing .f32)

variable [Facts₀]

def dot_S128x128_S128x256_S128x256_1_0_0_1_n_n : DotDims S128x128 S128x256 S128x256 where
  lhsContracting := [1]
  rhsContracting := [0]
  lhsNonContracting := [0]
  rhsNonContracting := [1]
  lhsBatch := []
  rhsBatch := []
  wf := dot_S128x128_S128x256_S128x256_1_0_0_1_n_n_wf

abbrev win0_0 : Pipeline.Window sig grid0 :=
  Pipeline.Window.ofSpec (Memref.whole main_v0) S16x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S128x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S128x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S16x128x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S64x8x128x256 : Shape := ⟨4, ![64, 8, 128, 256]⟩
abbrev S128x256 : Shape := ⟨2, ![128, 256]⟩
abbrev S128x128 : Shape := ⟨2, ![128, 128]⟩
abbrev S128 : Shape := ⟨1, ![128]⟩
abbrev S_ : Shape := ⟨0, ![]⟩
abbrev S64x8 : Shape := ⟨2, ![64, 8]⟩
abbrev S64x8x1x1 : Shape := ⟨4, ![64, 8, 1, 1]⟩
abbrev S1x1x128x256 : Shape := ⟨4, ![1, 1, 128, 256]⟩
abbrev S64x8x256x128 : Shape := ⟨4, ![64, 8, 256, 128]⟩
abbrev S1x1x1x128 : Shape := ⟨4, ![1, 1, 1, 128]⟩

abbrev nBuf : Space → Nat
  | .hbm => 80
  | .vmem => 0
  | .smem => 0
  | _ => 0

abbrev bufTy : (tb : Table) → Fin (tcTables nBuf tb) → BufTy
  | .hbm, ⟨0, _⟩ => ⟨S64x8x128x256, .f32⟩
  | .hbm, ⟨1, _⟩ => ⟨S128x256, .f32⟩
  | .hbm, ⟨2, _⟩ => ⟨S128x256, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .f32⟩
  | .hbm, ⟨8, _⟩ => ⟨S64x8, .f32⟩
  | .hbm, ⟨9, _⟩ => ⟨S64x8x1x1, .f32⟩
  | .hbm, ⟨10, _⟩ => ⟨S_, .f32⟩
  | .hbm, ⟨11, _⟩ => ⟨S64x8x1x1, .f32⟩
  | .hbm, ⟨12, _⟩ => ⟨S64x8x1x1, .f32⟩
  | .hbm, ⟨13, _⟩ => ⟨S64x8x128x256, .f32⟩
  | .hbm, ⟨14, _⟩ => ⟨S64x8x128x256, .f32⟩
  | .hbm, ⟨15, _⟩ => ⟨S64x8x128x256, .f32⟩
  | .hbm, ⟨16, _⟩ => ⟨S_, .f32⟩
  | .hbm, ⟨17, _⟩ => ⟨S64x8, .f32⟩
  | .hbm, ⟨18, _⟩ => ⟨S64x8x1x1, .f32⟩
  | .hbm, ⟨19, _⟩ => ⟨S_, .f32⟩
  | .hbm, ⟨20, _⟩ => ⟨S64x8x1x1, .f32⟩
  | .hbm, ⟨21, _⟩ => ⟨S64x8x1x1, .f32⟩
  | .hbm, ⟨22, _⟩ => ⟨S64x8x128x256, .f32⟩
  | .hbm, ⟨23, _⟩ => ⟨S64x8x128x256, .f32⟩
  | .hbm, ⟨24, _⟩ => ⟨S_, .f32⟩
  | .hbm, ⟨25, _⟩ => ⟨S64x8x1x1, .f32⟩
  | .hbm, ⟨26, _⟩ => ⟨S64x8x1x1, .f32⟩
  | .hbm, ⟨27, _⟩ => ⟨S64x8x1x1, .f32⟩
  | .hbm, ⟨28, _⟩ => ⟨S64x8x128x256, .f32⟩
  | .hbm, ⟨29, _⟩ => ⟨S64x8x128x256, .f32⟩
  | .hbm, ⟨30, _⟩ => ⟨S1x1x128x256, .f32⟩
  | .hbm, ⟨31, _⟩ => ⟨S64x8x128x256, .f32⟩
  | .hbm, ⟨32, _⟩ => ⟨S64x8x128x256, .f32⟩
  | .hbm, ⟨33, _⟩ => ⟨S1x1x128x256, .f32⟩
  | .hbm, ⟨34, _⟩ => ⟨S64x8x128x256, .f32⟩
  | .hbm, ⟨35, _⟩ => ⟨S64x8x128x256, .f32⟩
  | .hbm, ⟨36, _⟩ => ⟨S64x8x256x128, .f32⟩
  | .hbm, ⟨37, _⟩ => ⟨S128x128, .i32⟩
  | .hbm, ⟨38, _⟩ => ⟨S_, .i32⟩
  | .hbm, ⟨39, _⟩ => ⟨S128x128, .i32⟩
  | .hbm, ⟨40, _⟩ => ⟨S128x128, .i32⟩
  | .hbm, ⟨41, _⟩ => ⟨S128x128, .i32⟩
  | .hbm, ⟨42, _⟩ => ⟨S128x128, .i1⟩
  | .hbm, ⟨43, _⟩ => ⟨S_, .f32⟩
  | .hbm, ⟨44, _⟩ => ⟨S128x128, .f32⟩
  | .hbm, ⟨45, _⟩ => ⟨S128x128, .f32⟩
  | .hbm, ⟨46, _⟩ => ⟨S128x128, .i32⟩
  | .hbm, ⟨47, _⟩ => ⟨S_, .i32⟩
  | .hbm, ⟨48, _⟩ => ⟨S128x128, .i32⟩
  | .hbm, ⟨49, _⟩ => ⟨S128x128, .i32⟩
  | .hbm, ⟨50, _⟩ => ⟨S128x128, .i32⟩
  | .hbm, ⟨51, _⟩ => ⟨S128x128, .i1⟩
  | .hbm, ⟨52, _⟩ => ⟨S_, .f32⟩
  | .hbm, ⟨53, _⟩ => ⟨S128x128, .f32⟩
  | .hbm, ⟨54, _⟩ => ⟨S128x128, .f32⟩
  | .hbm, ⟨55, _⟩ => ⟨S64x8x256x128, .f32⟩
  | .hbm, ⟨56, _⟩ => ⟨S1x1x1x128, .f32⟩
  | .hbm, ⟨57, _⟩ => ⟨S64x8x256x128, .f32⟩
  | .hbm, ⟨58, _⟩ => ⟨S64x8x256x128, .f32⟩
  | .hbm, ⟨59, _⟩ => ⟨S_, .f32⟩
  | .hbm, ⟨60, _⟩ => ⟨S64x8x256x128, .f32⟩
  | .hbm, ⟨61, _⟩ => ⟨S64x8x256x128, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S64x8x256x128, .f32⟩
  | .hbm, ⟨66, _⟩ => ⟨S64x8x256x128, .f32⟩
  | .hbm, ⟨67, _⟩ => ⟨S_, .f32⟩
  | .hbm, ⟨68, _⟩ => ⟨S64x8x256x128, .f32⟩
  | .hbm, ⟨69, _⟩ => ⟨S64x8x256x128, .f32⟩
  | .hbm, ⟨70, _⟩ => ⟨S64x8x256x128, .f32⟩
  | .hbm, ⟨71, _⟩ => ⟨S_, .f32⟩
  | .hbm, ⟨72, _⟩ => ⟨S64x8x256x128, .f32⟩
  | .hbm, ⟨73, _⟩ => ⟨S64x8x256x128, .f32⟩
  | .hbm, ⟨74, _⟩ => ⟨S64x8x256x128, .f32⟩
  | .hbm, ⟨75, _⟩ => ⟨S1x1x1x128, .f32⟩
  | .hbm, ⟨76, _⟩ => ⟨S64x8x256x128, .f32⟩
  | .hbm, ⟨77, _⟩ => ⟨S64x8x256x128, .f32⟩
  | .hbm, ⟨78, _⟩ => ⟨S64x8x256x128, .f32⟩
  | .hbm, ⟨79, _⟩ => ⟨S64x8x128x256, .f32⟩
  | _, _ => ⟨S64x8x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_call0_v0 : Ref sig .tc := ⟨.hbm, 37, rfl⟩
abbrev main_call0_c : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_cst : Ref sig .tc := ⟨.hbm, 43, rfl⟩
abbrev main_call0_v5 : Ref sig .tc := ⟨.hbm, 44, rfl⟩
abbrev main_v25 : Ref sig .tc := ⟨.hbm, 45, rfl⟩
abbrev main_call1_v0 : Ref sig .tc := ⟨.hbm, 46, rfl⟩
abbrev main_call1_c : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_cst : Ref sig .tc := ⟨.hbm, 52, rfl⟩
abbrev main_call1_v5 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst_4 : Ref sig .tc := ⟨.hbm, 59, rfl⟩
abbrev main_v31 : Ref sig .tc := ⟨.hbm, 60, rfl⟩
abbrev main_v32 : Ref sig .tc := ⟨.hbm, 61, rfl⟩
abbrev main_cst_5 : Ref sig .tc := ⟨.hbm, 62, rfl⟩
abbrev main_cst_6 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_v33 : Ref sig .tc := ⟨.hbm, 69, rfl⟩
abbrev main_v34 : Ref sig .tc := ⟨.hbm, 70, rfl⟩
abbrev main_cst_7 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩

abbrev nD : Nat := 1
abbrev τ : Topo := Topo.v7x

variable {F : FTy → Type} [FloatOps F]

class Facts₀ : Prop where
  reducesTo_S64x8x128x256_S64x8_d2_3 : S64x8x128x256.ReducesTo [2, 3] S64x8
  h_S_ : 0 < S_.numel
  bcast_S64x8_S64x8x1x1_0_1 : S64x8.BroadcastsInDim S64x8x1x1 (![0, 1] : Fin 2 → Fin S64x8x1x1.rank)
  bcast_S_S64x8x1x1 : S_.BroadcastsInDim S64x8x1x1 (![] : Fin 0 → Fin S64x8x1x1.rank)
  bcast_S64x8x1x1_S64x8x128x256_0_1_2_3 : S64x8x1x1.BroadcastsInDim S64x8x128x256 (![0, 1, 2, 3] : Fin 4 → Fin S64x8x128x256.rank)
  bcast_S128x256_S1x1x128x256_2_3 : S128x256.BroadcastsInDim S1x1x128x256 (![2, 3] : Fin 2 → Fin S1x1x128x256.rank)
  bcast_S1x1x128x256_S64x8x128x256_0_1_2_3 : S1x1x128x256.BroadcastsInDim S64x8x128x256 (![0, 1, 2, 3] : Fin 4 → Fin S64x8x128x256.rank)
  transposes_S64x8x128x256_S64x8x256x128_0_1_3_2 : S64x8x128x256.Transposes [0, 1, 3, 2] S64x8x256x128
  bcast_S_S128x128 : S_.BroadcastsInDim S128x128 (![] : Fin 0 → Fin S128x128.rank)
  bcast_S128_S1x1x1x128_3 : S128.BroadcastsInDim S1x1x1x128 (![3] : Fin 1 → Fin S1x1x1x128.rank)
  bcast_S1x1x1x128_S64x8x256x128_0_1_2_3 : S1x1x1x128.BroadcastsInDim S64x8x256x128 (![0, 1, 2, 3] : Fin 4 → Fin S64x8x256x128.rank)
  bcast_S_S64x8x256x128 : S_.BroadcastsInDim S64x8x256x128 (![] : Fin 0 → Fin S64x8x256x128.rank)
  transposes_S64x8x256x128_S64x8x128x256_0_1_3_2 : S64x8x256x128.Transposes [0, 1, 3, 2] S64x8x128x256
  dot_S64x8x256x128_S128x128_S64x8x256x128_3_1_012_0_n_n_wf : DotDims.WF S64x8x256x128 S128x128 S64x8x256x128 [3] [1] [0, 1, 2] [0] [] []

variable [Facts₀]

def dot_S64x8x256x128_S128x128_S64x8x256x128_3_1_012_0_n_n : DotDims S64x8x256x128 S128x128 S64x8x256x128 where
  lhsContracting := [3]
  rhsContracting := [1]
  lhsNonContracting := [0, 1, 2]
  rhsNonContracting := [0]
  lhsBatch := []
  rhsBatch := []
  wf := dot_S64x8x256x128_S128x128_S64x8x256x128_3_1_012_0_n_n_wf

class Facts : Prop extends Facts₀ where

variable [Facts]
-- ==== Proof.Row.lean ====
/-
  One row of a block, as one function.

  The kernel body treats the sixteen slabs of its [16, 128, 256] block one after the other, each time with the same
  operations: LayerNorm of the slab (`norm`), then the two token-mixing products with hardswish between them and the
  residual sum (`mixed`). The printed body names the intermediate values of the sixteen copies in sixteen different
  groupings; unfolded, each copy's stored value is the same function `rowfn` of the gain, the shift, the two matrices,
  the two bias columns and the slab, at any float instance.
-/
import proofs.«120767_j6347961664093_1_alg».proof.Proof.Gen.KernelIdeal.Skeleton

noncomputable section

namespace Cert.Mixer

open Idealize.ShloMosaic Cert.KernelIdeal Cert.KernelIdeal.Gen

variable {F : FTy → Type} [FloatOps F]

/-- LayerNorm of one slab (given as a [1, 128, 256] piece) with gain `lnw` and shift `lnb`: the first copy's value. -/
abbrev norm (lnw lnb : Vec F S128x256 .f32) (x : Vec F S1x128x256 .f32) : FVec F S128x256 .f32 := k0_pay5 lnw lnb x

/-- The first token-mixing product of a normalised slab, before its bias. -/
abbrev firstProduct (a1 : FVec F S128x128 .bf16) (v : FVec F S128x256 .f32) : FVec F S128x256 .f32 :=
  matmul dot_S128x128_S128x256_S128x256_1_0_0_1_n_n none a1 (truncf .bf16 v bitsLt_bf16_f32) (constant S128x256 .f32 0x00000000#32)

/-- What one copy of the loop body stores for the slab `x`. -/
def rowfn (lnw lnb : Vec F S128x256 .f32) (a1 a2 : FVec F S128x128 .bf16) (c1 c2 : FVec F S128x1 .f32)
    (x : Vec F S1x128x256 .f32) : FVec F S1x128x256 .f32 :=
  k0_pay7 a2 c1 c2 (norm lnw lnb x) (firstProduct a1 (norm lnw lnb x))

/-- Copy 0, whose first product the printed body names with the matrix still uncast. -/
theorem row0 (lnw lnb : Vec F S128x256 .f32) (m1 : Vec F S128x128 .bf16) (a2 : FVec F S128x128 .bf16) (c1 c2 : FVec F S128x1 .f32)
    (x : Vec F S1x128x256 .f32) :
    k0_pay7 a2 c1 c2 (k0_pay5 lnw lnb x) (k0_pay6 lnw lnb m1 x) = rowfn lnw lnb (k0_pay1 m1) a2 c1 c2 x := rfl

theorem row1 (lnw lnb : Vec F S128x256 .f32) (a1 a2 : FVec F S128x128 .bf16) (c1 c2 : FVec F S128x1 .f32)
    (x : Vec F S1x128x256 .f32) :
    k0_pay9 lnw lnb a1 a2 c1 c2 (k0_pay8 x) = rowfn lnw lnb a1 a2 c1 c2 x := rfl

theorem row2 (lnw lnb : Vec F S128x256 .f32) (a1 a2 : FVec F S128x128 .bf16) (c1 c2 : FVec F S128x1 .f32)
    (x : Vec F S1x128x256 .f32) :
    k0_pay12 lnw lnb a1 a2 c1 c2 (k0_pay10 x) (k0_pay11 x) (Scalar.ofBits .f32 0x3727C5AC#32) = rowfn lnw lnb a1 a2 c1 c2 x := rfl

theorem row3 (lnw lnb : Vec F S128x256 .f32) (a1 a2 : FVec F S128x128 .bf16) (c1 c2 : FVec F S128x1 .f32)
    (x : Vec F S1x128x256 .f32) :
    k0_pay15 lnw lnb a1 a2 c1 c2 (k0_pay13 x) (k0_pay14 x) = rowfn lnw lnb a1 a2 c1 c2 x := rfl

theorem row4 (lnw lnb : Vec F S128x256 .f32) (a1 a2 : FVec F S128x128 .bf16) (c1 c2 : FVec F S128x1 .f32)
    (x : Vec F S1x128x256 .f32) :
    k0_pay18 lnw lnb a1 a2 c1 c2 (k0_pay16 x) (k0_pay17 x) = rowfn lnw lnb a1 a2 c1 c2 x := rfl

theorem row5 (lnw lnb : Vec F S128x256 .f32) (a1 a2 : FVec F S128x128 .bf16) (c1 c2 : FVec F S128x1 .f32)
    (x : Vec F S1x128x256 .f32) :
    k0_pay21 lnw lnb a1 a2 c1 c2 (k0_pay19 x) (k0_pay20 x) (Scalar.ofBits .f32 0x38000000#32) = rowfn lnw lnb a1 a2 c1 c2 x := rfl

theorem row6 (lnw lnb : Vec F S128x256 .f32) (a1 a2 : FVec F S128x128 .bf16) (c1 c2 : FVec F S128x1 .f32)
    (x : Vec F S1x128x256 .f32) :
    k0_pay24 lnw lnb a1 a2 c1 c2 (k0_pay22 x) (k0_pay23 x) = rowfn lnw lnb a1 a2 c1 c2 x := rfl

theorem row7 (lnw lnb : Vec F S128x256 .f32) (a1 a2 : FVec F S128x128 .bf16) (c1 c2 : FVec F S128x1 .f32)
    (x : Vec F S1x128x256 .f32) :
    k0_pay26 (k0_pay25 lnw lnb a1 a2 c1 c2 x) = rowfn lnw lnb a1 a2 c1 c2 x := rfl

theorem row8 (lnw lnb : Vec F S128x256 .f32) (a1 a2 : FVec F S128x128 .bf16) (c1 c2 : FVec F S128x1 .f32)
    (x : Vec F S1x128x256 .f32) :
    k0_pay29 (k0_pay27 lnw lnb x) (k0_pay28 lnw lnb a1 a2 c1 c2 x) = rowfn lnw lnb a1 a2 c1 c2 x := rfl

theorem row9 (lnw lnb : Vec F S128x256 .f32) (a1 a2 : FVec F S128x128 .bf16) (c1 c2 : FVec F S128x1 .f32)
    (x : Vec F S1x128x256 .f32) :
    k0_pay32 a2 c2 (k0_pay30 lnw lnb x) (k0_pay31 lnw lnb a1 c1 x) = rowfn lnw lnb a1 a2 c1 c2 x := rfl

theorem row10 (lnw lnb : Vec F S128x256 .f32) (a1 a2 : FVec F S128x128 .bf16) (c1 c2 : FVec F S128x1 .f32)
    (x : Vec F S1x128x256 .f32) :
    k0_pay37 a2 c2 (k0_pay33 lnw lnb x) (k0_pay34 lnw lnb a1 c1 x) (k0_pay35 lnw lnb a1 c1 x) (k0_pay36 (F := F)) = rowfn lnw lnb a1 a2 c1 c2 x := rfl

theorem row11 (lnw lnb : Vec F S128x256 .f32) (a1 a2 : FVec F S128x128 .bf16) (c1 c2 : FVec F S128x1 .f32)
    (x : Vec F S1x128x256 .f32) :
    k0_pay41 a2 c2 (k0_pay38 lnw lnb x) (k0_pay39 lnw lnb a1 c1 x) (k0_pay40 lnw lnb a1 c1 x) = rowfn lnw lnb a1 a2 c1 c2 x := rfl

theorem row12 (lnw lnb : Vec F S128x256 .f32) (a1 a2 : FVec F S128x128 .bf16) (c1 c2 : FVec F S128x1 .f32)
    (x : Vec F S1x128x256 .f32) :
    k0_pay44 a2 c1 c2 (k0_pay42 lnw lnb x) (k0_pay43 lnw lnb a1 x) = rowfn lnw lnb a1 a2 c1 c2 x := rfl

theorem row13 (lnw lnb : Vec F S128x256 .f32) (a1 a2 : FVec F S128x128 .bf16) (c1 c2 : FVec F S128x1 .f32)
    (x : Vec F S1x128x256 .f32) :
    k0_pay46 lnw lnb a1 a2 c1 c2 (k0_pay45 x) = rowfn lnw lnb a1 a2 c1 c2 x := rfl

theorem row14 (lnw lnb : Vec F S128x256 .f32) (a1 a2 : FVec F S128x128 .bf16) (c1 c2 : FVec F S128x1 .f32)
    (x : Vec F S1x128x256 .f32) :
    k0_pay49 lnw lnb a1 a2 c1 c2 (k0_pay47 x) (k0_pay48 x) (Scalar.ofBits .f32 0x3727C5AC#32) = rowfn lnw lnb a1 a2 c1 c2 x := rfl

theorem row15 (lnw lnb : Vec F S128x256 .f32) (a1 a2 : FVec F S128x128 .bf16) (c1 c2 : FVec F S128x1 .f32)
    (x : Vec F S1x128x256 .f32) :
    k0_pay52 lnw lnb a1 a2 c1 c2 (k0_pay50 x) (k0_pay51 x) = rowfn lnw lnb a1 a2 c1 c2 x := rfl

end Cert.Mixer

end
-- ==== Proof.Spec.lean ====
/-
  The mathematics of one (b, c) slab of the mixer, over the extended reals.

  A slab is a 128 × 256 matrix x (rows s: the token axis T; columns f: the feature axis F).
    mean   μ      = (Σ_s Σ_f x s f) · 2⁻¹⁵                      (128 · 256 = 2¹⁵ entries)
    centred d s f = x s f − μ
    variance σ²   = (Σ_s Σ_f d s f · d s f) · 2⁻¹⁵
    normalised    xn s f = d s f · rsqrt (σ² + ε) · w s f + β s f
    a token-mixing layer with a lower-triangular matrix M and a bias b:
                  lin M b v s f = (Σ_t M s t · v t f) + b s
    hardswish     hsw z = z · min 6 (max 0 (z + 3)) · ⅙'
    result        y s f = xn s f + lin M₂ b₂ (hsw ∘ lin M₁ b₁ xn) s f
  The scale 2⁻¹⁵, ε, 3, 0, 6 and ⅙' are the values of the float words both programs carry; none of them is
  ever evaluated except where the two programs spell a number differently (a quotient by 32768 against a
  product with 2⁻¹⁵, and the zero a sum starts from).
-/
import Idealize.ShloMosaic.PureOps.Ideal
import Idealize.ShloMosaic.PureOps.Ideal.Laws
import Idealize.ShloMosaic.Lib.ValueIdx

noncomputable section

namespace Cert.Mixer.Spec

open Idealize.ShloMosaic Idealize.ShloMosaic.ValueIdx

/-- 2⁻¹⁵ as the kernel's word. -/
def invN : EReal := Ideal.ofBits .f32 0x38000000#32
/-- 32768 as the reference's word. -/
def bigN : EReal := Ideal.ofBits .f32 0x47000000#32
/-- The LayerNorm ε (the float nearest 1e-5), the same word in both programs. -/
def eps : EReal := Ideal.ofBits .f32 0x3727C5AC#32
def three : EReal := Ideal.ofBits .f32 0x40400000#32
def zero : EReal := Ideal.ofBits .f32 0x00000000#32
def six : EReal := Ideal.ofBits .f32 0x40C00000#32
/-- The float nearest 1/6, the same word in both programs. -/
def sixth : EReal := Ideal.ofBits .f32 0x3E2AAAAB#32

/-- The mean of a slab: the sum of its rows' sums, scaled. -/
def mean (x : Fin 128 → Fin 256 → EReal) : EReal := (∑ s : Fin 128, ∑ f : Fin 256, x s f) * invN

/-- A slab centred at its mean. -/
def dev (x : Fin 128 → Fin 256 → EReal) (s : Fin 128) (f : Fin 256) : EReal := x s f - mean x

/-- The (biased) variance of a slab. -/
def var (x : Fin 128 → Fin 256 → EReal) : EReal := (∑ s : Fin 128, ∑ f : Fin 256, dev x s f * dev x s f) * invN

/-- LayerNorm over the whole slab with elementwise gain `w` and shift `β`. -/
def xn (x w β : Fin 128 → Fin 256 → EReal) (s : Fin 128) (f : Fin 256) : EReal :=
  dev x s f * Ideal.rsqrt (var x + eps) * w s f + β s f

/-- hardswish, with the clip written as the programs write it. -/
def hsw (z : EReal) : EReal := z * min six (max zero (z + three)) * sixth

/-- Mixing along the token axis: row s of the result is Σ_t M s t · (row t of v), plus b s. -/
def lin (M : Fin 128 → Fin 128 → EReal) (b : Fin 128 → EReal) (v : Fin 128 → Fin 256 → EReal) (s : Fin 128) (f : Fin 256) : EReal :=
  (∑ t : Fin 128, M s t * v t f) + b s

/-- One slab's result. -/
def out (x w β : Fin 128 → Fin 256 → EReal) (M₁ : Fin 128 → Fin 128 → EReal) (b₁ : Fin 128 → EReal)
    (M₂ : Fin 128 → Fin 128 → EReal) (b₂ : Fin 128 → EReal) (s : Fin 128) (f : Fin 256) : EReal :=
  xn x w β s f + lin M₂ b₂ (fun t g => hsw (lin M₁ b₁ (xn x w β) t g)) s f

/-- The whole result array: entry (b, c, s, f) is slab (b, c)'s result at (s, f). The mixing matrices arrive already
    lower-triangular. -/
def G (X : (⟨4, ![64, 8, 128, 256]⟩ : Shape).Idx → EReal) (w β : (⟨2, ![128, 256]⟩ : Shape).Idx → EReal)
    (M₁ : (⟨2, ![128, 128]⟩ : Shape).Idx → EReal) (b₁ : (⟨1, ![128]⟩ : Shape).Idx → EReal)
    (M₂ : (⟨2, ![128, 128]⟩ : Shape).Idx → EReal) (b₂ : (⟨1, ![128]⟩ : Shape).Idx → EReal) :
    (⟨4, ![64, 8, 128, 256]⟩ : Shape).Idx → EReal :=
  fun i => out (fun s f => X (ix4 (i 0) (i 1) s f)) (fun s f => w (ix2 s f)) (fun s f => β (ix2 s f))
    (fun s t => M₁ (ix2 s t)) (fun s => b₁ (ix1 s)) (fun s t => M₂ (ix2 s t)) (fun s => b₂ (ix1 s)) (i 2) (i 3)

theorem G_apply (X : (⟨4, ![64, 8, 128, 256]⟩ : Shape).Idx → EReal) (w β : (⟨2, ![128, 256]⟩ : Shape).Idx → EReal)
    (M₁ : (⟨2, ![128, 128]⟩ : Shape).Idx → EReal) (b₁ : (⟨1, ![128]⟩ : Shape).Idx → EReal)
    (M₂ : (⟨2, ![128, 128]⟩ : Shape).Idx → EReal) (b₂ : (⟨1, ![128]⟩ : Shape).Idx → EReal)
    (b : Fin 64) (c : Fin 8) (s : Fin 128) (f : Fin 256) :
    G X w β M₁ b₁ M₂ b₂ (ix4 b c s f)
      = out (fun s f => X (ix4 b c s f)) (fun s f => w (ix2 s f)) (fun s f => β (ix2 s f))
          (fun s t => M₁ (ix2 s t)) (fun s => b₁ (ix1 s)) (fun s t => M₂ (ix2 s t)) (fun s => b₂ (ix1 s)) s f := rfl

/-! ## Where the two programs spell a number differently -/

/-- The reference's 32768 is the real number 2¹⁵. -/
theorem bigN_eq : bigN = ((32768 : ℝ) : EReal) := by
  simp [bigN, Ideal.ofBits, Ideal.ieee]
  rw [← EReal.coe_mul]
  exact congrArg _ (by norm_num)

/-- The kernel's 2⁻¹⁵ is the real number 1/32768. -/
theorem invN_eq : invN = ((1 / 32768 : ℝ) : EReal) := by
  simp [invN, Ideal.ofBits, Ideal.ieee]
  rw [← EReal.coe_mul]
  exact congrArg _ (by norm_num)

/-- A quotient by 32768 is a product with 2⁻¹⁵, at every extended real. -/
theorem div_bigN (a : EReal) : Ideal.div a bigN = a * invN := by
  rw [bigN_eq, invN_eq, Ideal.div_coe (by norm_num : (32768 : ℝ) ≠ 0)]

/-- A sum started from the zero word is the sum. -/
theorem zero_add' (a : EReal) : zero + a = a := by
  rw [zero, Ideal.ofBits_zero_f32, zero_add]

end Cert.Mixer.Spec

end
-- ==== Proof.LibPlainDot.lean ====
/-
  A plain two-dimensional matrix product read at an index.

  For the dimension numbers "rows × contraction times contraction × columns" (no batch axis) the operand indices at the
  output index (p, q) and contraction index k are (p, k) and (k, q); so at the extended reals a `tpu.matmul` into the
  zero accumulator and a host `dot_general` are both  Σ_k l(p, k) · r(k, q),  a finite sum over the contracted axis.
  A transposed operand reads its source at the swapped index.
-/
import Idealize.ShloMosaic.PureOps.Ideal.Laws
import Idealize.ShloMosaic.Lib.ValueIdx
import Idealize.ShloMosaic.Lib.Pipeline.Value

noncomputable section

namespace Cert.LibPlainDot

open Idealize.ShloMosaic Idealize.ShloMosaic.ValueIdx

variable {M K N : Nat}

/-- The contraction shape of a plain product has one axis. -/
theorem plain_contr_rank : (DotDims.plain M K N).contr.rank = 1 := rfl
/-- Its extent is the shared dimension. -/
theorem plain_contr_size : (DotDims.plain M K N).contr.size ⟨0, by rw [plain_contr_rank]; exact Nat.one_pos⟩ = K := rfl

/-- The left operand's index at output (p, q) and contraction coordinate k is (p, k). -/
theorem plain_lhsIdx (j : (⟨2, ![M, N]⟩ : Shape).Idx) (k : Fin K) :
    (DotDims.plain M K N).lhsIdx j ((contrEquiv1 (DotDims.plain M K N) K plain_contr_rank plain_contr_size).symm k) = ix2 (j 0) k := by
  funext a
  refine Fin.ext ?_
  match a with
  | ⟨0, _⟩ => rfl
  | ⟨1, _⟩ =>
    exact ((DotDims.plain M K N).lhsIdx_val_of_single (cl := 1) rfl j _).trans
      (contrEquiv1_symm_val (DotDims.plain M K N) K plain_contr_rank plain_contr_size k)

/-- The right operand's index is (k, q). -/
theorem plain_rhsIdx (j : (⟨2, ![M, N]⟩ : Shape).Idx) (k : Fin K) :
    (DotDims.plain M K N).rhsIdx j ((contrEquiv1 (DotDims.plain M K N) K plain_contr_rank plain_contr_size).symm k) = ix2 k (j 1) := by
  funext a
  refine Fin.ext ?_
  match a with
  | ⟨0, _⟩ =>
    exact ((DotDims.plain M K N).rhsIdx_val_of_single (cr := 0) rfl j _).trans
      (contrEquiv1_symm_val (DotDims.plain M K N) K plain_contr_rank plain_contr_size k)
  | ⟨1, _⟩ => rfl

/-- The contraction sum of a plain product over its one coordinate. -/
theorem plain_sum (l : (⟨2, ![M, K]⟩ : Shape).Idx → EReal) (r : (⟨2, ![K, N]⟩ : Shape).Idx → EReal) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K plain_contr_rank plain_contr_size).symm]
  exact Finset.sum_congr rfl fun k _ =>
    congrArg₂ (· * ·) (congrArg l (plain_lhsIdx j k)) (congrArg r (plain_rhsIdx j k))

/-- A `tpu.matmul` with plain dimension numbers into the zero accumulator, at an index, whatever the operands' formats. -/
theorem matmul_plain_zero {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    FloatOps.matmul (DotDims.plain M K N) prec l r (constant ⟨2, ![M, N]⟩ .f32 0x00000000#32) j
      = ∑ k : Fin K, (l (ix2 (j 0) k) : EReal) * (r (ix2 k (j 1)) : EReal) := by
  rw [Ideal.matmul_constant_zero_apply]
  exact plain_sum l r j

/-- A host `dot_general` with plain dimension numbers, at an index. -/
theorem dotGeneral_plain {φ₁ φ₂ : FTy} (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral (DotDims.plain M K N) prec sched l r j
      = ∑ k : Fin K, (l (ix2 (j 0) k) : EReal) * (r (ix2 k (j 1)) : EReal) := by
  rw [Ideal.dotGeneral_apply]
  exact plain_sum l r j

/-! ## Layout reads the dense layers need -/

/-- A two-dimensional transpose reads its source at the swapped index. -/
theorem transpose2_apply {α : Type} {A B : Nat} (x : (⟨2, ![A, B]⟩ : Shape).Idx → α)
    (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) fun c => by
    match c with
    | ⟨0, _⟩ => rfl
    | ⟨1, _⟩ => rfl

/-- A vector recast as a one-row matrix and broadcast down the rows (a kernel's bias) reads, at (p, q), the vector at q. -/
theorem rowBroadcastTo_apply {α : Type} {R C : Nat} (v : (⟨1, ![C]⟩ : Shape).Idx → α)
    (h1 : (⟨1, ![C]⟩ : Shape).ShapeCasts ⟨2, ![1, C]⟩) (h2 : (⟨2, ![1, C]⟩ : Shape).Broadcasts ⟨2, ![R, C]⟩)
    (p : Fin R) (q : Fin C) :
    broadcastTo ⟨2, ![R, C]⟩ (shapeCast ⟨2, ![1, C]⟩ v h1) h2 (ix2 p q) = v (ix1 q) := by
  rw [broadcastTo_apply (shapeCast ⟨2, ![1, C]⟩ v h1) h2 (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact shapeCast_apply v h1 (ix2 (0 : Fin 1) q) (ix1 q) (by
    rw [Shape.rowMajor_val_one, Shape.rowMajor_val_two]
    show q.val = (0 : Nat) * C + q.val
    omega)

/-- The host's form of the same bias: a vector laid along the second axis by two `broadcast_in_dim`s reads, at (p, q), the vector at q. -/
theorem rowBroadcastInDim_apply {α : Type} {R C : Nat} (v : (⟨1, ![C]⟩ : Shape).Idx → α)
    (h1 : (⟨1, ![C]⟩ : Shape).BroadcastsInDim ⟨2, ![1, C]⟩ ![1]) (h2 : (⟨2, ![1, C]⟩ : Shape).BroadcastsInDim ⟨2, ![R, C]⟩ ![0, 1])
    (p : Fin R) (q : Fin C) :
    broadcastInDim ⟨2, ![R, C]⟩ ![0, 1] h2 (broadcastInDim ⟨2, ![1, C]⟩ ![1] h1 v) (ix2 p q) = v (ix1 q) := by
  rw [broadcastInDim_apply ![0, 1] h2 _ (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact broadcastInDim_apply ![1] h1 v (ix2 (0 : Fin 1) q) (ix1 q) (fun a => by
    match a with
    | ⟨0, _⟩ =>
      show q.val = if C = 1 then 0 else q.val
      split
      · have := q.isLt; omega
      · rfl)

end Cert.LibPlainDot

end
-- ==== Proof.RowValue.lean ====
/-
  One row of the mixer read at an index, over the extended reals.

  The kernel's value for one [1, 128, 256] slab is a chain of elementwise operations, two pairs of sums (along the
  lanes, then down the rows) kept as [128, 1] and [1, 1] arrays and broadcast back, and two matrix products into the
  zero array. Read at the index (0, s, f), each operation is the matching operation on extended reals at (s, f): a
  cast only renames the index, a broadcast reads its source at the coordinates it keeps, a sum over one axis is a
  finite sum over that axis's coordinates, and a product into the zero array is the finite sum over the contracted
  coordinate. Composed in the kernel's order they spell `Spec.out`.
-/
import proofs.«120767_j6347961664093_1_alg».proof.Proof.Row
import proofs.«120767_j6347961664093_1_alg».proof.Proof.Spec
import proofs.«120767_j6347961664093_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.Mixer

open Idealize.ShloMosaic Idealize.ShloMosaic.ValueIdx Cert.KernelIdeal Cert.KernelIdeal.Gen

/-! ## Kept unit axes: the casts and broadcasts of a sum that keeps its dimensions -/

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, 1]` array broadcast to `[a, b]` reads its one entry everywhere. -/
theorem broadcastTo_11_ab_apply {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The slab's total: lane sums, then the sum down the rows -/

/-- The lane sums of a `[128, 256]` array, kept as a column and summed down the rows, are at their one index the double
    sum of the array's entries. -/
theorem slabSum_apply (v : FVec Ideal S128x256 .f32)
    (h1 : S128x256.Reduces [1] S128) (hφ1 : FKind.Formats .f32) (hacc1 : (0x00000000#32 : BitVec 32) = FKind.add.neutral .f32 hφ1)
    (hc : S128.ShapeCasts S128x1)
    (h2 : S128x1.Reduces [0] S1) (hφ2 : FKind.Formats .f32) (hacc2 : (0x00000000#32 : BitVec 32) = FKind.add.neutral .f32 hφ2)
    (u : Fin 1) :
    multiReduction (F := Ideal) .add [0] S1
        (shapeCast S128x1 (multiReduction (F := Ideal) .add [1] S128 v 0x00000000#32 h1 hφ1 hacc1) hc) 0x00000000#32 h2 hφ2 hacc2 (ix1 u)
      = ∑ s : Fin 128, ∑ f : Fin 256, (v (ix2 s f) : EReal) := by
  refine (Ideal.multiReduction_add_single _ 0x00000000#32 h2 hφ2 hacc2 (ix1 u)).trans ?_
  refine Finset.sum_congr rfl fun s _ => ?_
  have e2 : h2.lift (ix1 u) s = ix2 (n0 := 128) (n1 := 1) s u := by
    funext c
    refine Fin.ext ?_
    match c with
    | ⟨0, _⟩ => rfl
    | ⟨1, _⟩ => rfl
  rw [e2]
  refine (shapeCast_a_a1_apply _ hc s u).trans ?_
  refine (Ideal.multiReduction_add_single v 0x00000000#32 h1 hφ1 hacc1 (ix1 s)).trans ?_
  refine Finset.sum_congr rfl fun f _ => ?_
  have e1 : h1.lift (ix1 s) f = ix2 (n0 := 128) (n1 := 256) s f := by
    funext c
    refine Fin.ext ?_
    match c with
    | ⟨0, _⟩ => rfl
    | ⟨1, _⟩ => rfl
  rw [e1]

/-! ## LayerNorm of a slab -/

/-- A `[1, 128, 256]` slab as a `[128, 256]` array. -/
abbrev flat (x : Vec Ideal S1x128x256 .f32) : FVec Ideal S128x256 .f32 :=
  shapeCast S128x256 x shapeCasts_S1x128x256_S128x256

theorem flat_apply (x : Vec Ideal S1x128x256 .f32) (s : Fin 128) (f : Fin 256) :
    flat x (ix2 s f) = x (ix3 (0 : Fin 1) s f) :=
  shapeCast_1ab_ab_apply x shapeCasts_S1x128x256_S128x256 s f

/-- The scaled total of a `[128, 256]` array as the kernel keeps it, a `[1, 1]` array: the lane sums, their sum down
    the rows, times the word 2⁻¹⁵. -/
def scaledTotal (v : FVec Ideal S128x256 .f32) : FVec Ideal S1x1 .f32 :=
  mulf
    (shapeCast S1x1
      (multiReduction (F := Ideal) .add [0] S1
        (shapeCast S128x1
          (multiReduction (F := Ideal) .add [1] S128 v 0x00000000#32 reduces_S128x256_S128 (.inl rfl) rfl)
          shapeCasts_S128_S128x1)
        0x00000000#32 reduces_S128x1_S1 (.inl rfl) rfl)
      shapeCasts_S1_S1x1)
    (broadcast S1x1 (FloatOps.ofBits (F := Ideal) .f32 0x38000000#32))

/-- Its one entry is the double sum times 2⁻¹⁵. -/
theorem scaledTotal_apply (v : FVec Ideal S128x256 .f32) (u w : Fin 1) :
    scaledTotal v (ix2 u w) = (∑ s : Fin 128, ∑ f : Fin 256, (v (ix2 s f) : EReal)) * Spec.invN := by
  unfold scaledTotal
  refine (mulf_apply _ _ _).trans ?_
  refine congrArg₂ (· * ·) ?_ rfl
  refine (shapeCast_a_1a_apply _ shapeCasts_S1_S1x1 u w).trans ?_
  exact slabSum_apply v _ _ _ _ _ _ _ w

/-- A `[128, 256]` array minus its scaled total. -/
def centred (v : FVec Ideal S128x256 .f32) : FVec Ideal S128x256 .f32 :=
  subf v (broadcastTo S128x256 (scaledTotal v) broadcasts_S1x1_S128x256)

/-- At `(s, f)` it is the entry minus the mean. -/
theorem centred_apply (v : FVec Ideal S128x256 .f32) (s : Fin 128) (f : Fin 256) :
    centred v (ix2 s f) = Spec.dev (fun s f => v (ix2 s f)) s f := by
  unfold centred
  refine (subf_apply _ _ _).trans ?_
  refine congrArg (v (ix2 s f) - ·) ?_
  refine (broadcastTo_11_ab_apply _ broadcasts_S1x1_S128x256 s f).trans ?_
  exact scaledTotal_apply v 0 0

/-- The kernel's LayerNorm, with its two scaled totals named. -/
theorem norm_eq (lnw lnb : Vec Ideal S128x256 .f32) (x : Vec Ideal S1x128x256 .f32) :
    norm lnw lnb x
      = addf
          (mulf
            (mulf (centred (flat x))
              (broadcastTo S128x256
                (rsqrt
                  (addf (scaledTotal (mulf (centred (flat x)) (centred (flat x))))
                    (broadcast S1x1 (FloatOps.ofBits (F := Ideal) .f32 0x3727C5AC#32))))
                broadcasts_S1x1_S128x256))
            lnw)
          lnb := rfl

/-- LayerNorm of the slab at `(s, f)`. -/
theorem norm_apply (lnw lnb : Vec Ideal S128x256 .f32) (x : Vec Ideal S1x128x256 .f32) (s : Fin 128) (f : Fin 256) :
    norm lnw lnb x (ix2 s f)
      = Spec.xn (fun s f => x (ix3 (0 : Fin 1) s f)) (fun s f => lnw (ix2 s f)) (fun s f => lnb (ix2 s f)) s f := by
  have hflat : (fun s f => flat x (ix2 s f)) = fun s f => x (ix3 (0 : Fin 1) s f) :=
    funext fun s => funext fun f => flat_apply x s f
  have hd : ∀ s f, centred (flat x) (ix2 s f) = Spec.dev (fun s f => x (ix3 (0 : Fin 1) s f)) s f := fun s f =>
    (centred_apply (flat x) s f).trans (congrArg (fun X => Spec.dev X s f) hflat)
  have hv : scaledTotal (mulf (centred (flat x)) (centred (flat x))) (ix2 (0 : Fin 1) (0 : Fin 1))
      = Spec.var (fun s f => x (ix3 (0 : Fin 1) s f)) := by
    refine (scaledTotal_apply _ 0 0).trans ?_
    refine congrArg (· * Spec.invN) ?_
    refine Finset.sum_congr rfl fun s _ => Finset.sum_congr rfl fun f _ => ?_
    exact (mulf_apply _ _ _).trans (congrArg₂ (· * ·) (hd s f) (hd s f))
  rw [norm_eq]
  refine (addf_apply _ _ _).trans ?_
  refine congrArg (· + lnb (ix2 s f)) ?_
  refine (mulf_apply _ _ _).trans ?_
  refine congrArg (· * lnw (ix2 s f)) ?_
  refine (mulf_apply _ _ _).trans ?_
  refine congrArg₂ (· * ·) (hd s f) ?_
  refine (broadcastTo_11_ab_apply _ broadcasts_S1x1_S128x256 s f).trans ?_
  show Ideal.rsqrt (scaledTotal _ (ix2 (0 : Fin 1) (0 : Fin 1)) + Spec.eps) = _
  rw [hv]

/-! ## The two token-mixing products, hardswish, and the residual sum -/

/-- The kernel's dimension numbers are the plain rows-by-columns ones. -/
theorem dot_eq_plain : dot_S128x128_S128x256_S128x256_1_0_0_1_n_n = DotDims.plain 128 128 256 := rfl

/-- A `[128, 128]` matrix times a `[128, 256]` array into the zero array, at `(s, f)`: the sum over the contracted row. -/
theorem product_apply (a : FVec Ideal S128x128 .bf16) (r : FVec Ideal S128x256 .bf16) (s : Fin 128) (f : Fin 256) :
    matmul dot_S128x128_S128x256_S128x256_1_0_0_1_n_n none a r (constant (F := Ideal) S128x256 .f32 0x00000000#32) (ix2 s f)
      = ∑ t : Fin 128, (a (ix2 s t) : EReal) * (r (ix2 t f) : EReal) := by
  rw [dot_eq_plain]
  exact Cert.LibPlainDot.matmul_plain_zero none a r (ix2 s f)

/-- A product plus a bias column broadcast along the lanes, at `(s, f)`: one token-mixing layer. -/
theorem layer_apply (a : FVec Ideal S128x128 .bf16) (c : FVec Ideal S128x1 .f32) (v : FVec Ideal S128x256 .f32)
    (s : Fin 128) (f : Fin 256) :
    addf
        (matmul dot_S128x128_S128x256_S128x256_1_0_0_1_n_n none a (truncf .bf16 v bitsLt_bf16_f32)
          (constant (F := Ideal) S128x256 .f32 0x00000000#32))
        (broadcastTo S128x256 c broadcasts_S128x1_S128x256) (ix2 s f)
      = Spec.lin (fun s t => a (ix2 s t)) (fun s => c (ix2 s (0 : Fin 1))) (fun s f => v (ix2 s f)) s f := by
  refine (addf_apply _ _ _).trans ?_
  refine congrArg₂ (· + ·) ?_ (broadcastTo_a1_ab_apply c broadcasts_S128x1_S128x256 s f)
  exact product_apply a (truncf .bf16 v bitsLt_bf16_f32) s f

/-- The kernel's hardswish of an array: `z · min 6 (max 0 (z + 3)) · ⅙'`, the numbers as the words it carries. -/
def hardswish (z : FVec Ideal S128x256 .f32) : FVec Ideal S128x256 .f32 :=
  mulf
    (mulf z
      (minimumf (broadcast S128x256 (FloatOps.ofBits (F := Ideal) .f32 0x40C00000#32))
        (maximumf (broadcast S128x256 (FloatOps.ofBits (F := Ideal) .f32 0x00000000#32))
          (addf z (broadcast S128x256 (FloatOps.ofBits (F := Ideal) .f32 0x40400000#32))))))
    (broadcast S128x256 (FloatOps.ofBits (F := Ideal) .f32 0x3E2AAAAB#32))

theorem hardswish_apply (z : FVec Ideal S128x256 .f32) (i : S128x256.Idx) : hardswish z i = Spec.hsw (z i) := rfl

/-- The second half of a row, with its layers named. -/
theorem pay7_eq (a2 : FVec Ideal S128x128 .bf16) (c1 c2 : FVec Ideal S128x1 .f32) (v p : FVec Ideal S128x256 .f32) :
    k0_pay7 a2 c1 c2 v p
      = shapeCast S1x128x256
          (addf v
            (addf
              (matmul dot_S128x128_S128x256_S128x256_1_0_0_1_n_n none a2
                (truncf .bf16 (hardswish (addf p (broadcastTo S128x256 c1 broadcasts_S128x1_S128x256))) bitsLt_bf16_f32)
                (constant (F := Ideal) S128x256 .f32 0x00000000#32))
              (broadcastTo S128x256 c2 broadcasts_S128x1_S128x256)))
          shapeCasts_S128x256_S1x128x256 := rfl

/-- THE ROW AT AN INDEX: what one copy of the loop body stores for the slab `x`, at `(0, s, f)`, is the slab's result
    at `(s, f)`. -/
theorem rowfn_apply (lnw lnb : Vec Ideal S128x256 .f32) (a1 a2 : FVec Ideal S128x128 .bf16) (c1 c2 : FVec Ideal S128x1 .f32)
    (x : Vec Ideal S1x128x256 .f32) (s : Fin 128) (f : Fin 256) :
    rowfn lnw lnb a1 a2 c1 c2 x (ix3 (0 : Fin 1) s f)
      = Spec.out (fun s f => x (ix3 (0 : Fin 1) s f)) (fun s f => lnw (ix2 s f)) (fun s f => lnb (ix2 s f))
          (fun s t => a1 (ix2 s t)) (fun s => c1 (ix2 s (0 : Fin 1))) (fun s t => a2 (ix2 s t)) (fun s => c2 (ix2 s (0 : Fin 1))) s f := by
  unfold rowfn
  rw [pay7_eq]
  refine (shapeCast_ab_1ab_apply _ shapeCasts_S128x256_S1x128x256 (0 : Fin 1) s f).trans ?_
  refine (addf_apply _ _ _).trans ?_
  unfold Spec.out
  refine congrArg₂ (· + ·) (norm_apply lnw lnb x s f) ?_
  refine (layer_apply a2 c2 _ s f).trans ?_
  refine congrArg (fun V => Spec.lin _ _ V s f) ?_
  funext t g
  refine (hardswish_apply _ _).trans ?_
  refine congrArg Spec.hsw ?_
  refine (layer_apply a1 c1 (norm lnw lnb x) t g).trans ?_
  refine congrArg (fun V => Spec.lin _ _ V t g) ?_
  funext t' g'
  exact norm_apply lnw lnb x t' g'

end Cert.Mixer

end
-- ==== Proof.Block.lean ====
/-
  What the kernel body leaves in its output block, entry by entry.

  The body stores sixteen [1, 128, 256] pieces, piece k at rows k of the [16, 128, 256] block; piece k is the row
  function of slab k of the input block (Row.lean), which at an index is the slab's result (RowValue.lean). So entry (k, s, f) of the block after the body is slab k's result
  at (s, f): every entry is covered by exactly the piece of its first coordinate, and the sixteen pieces are tiles of one
  function of the block's index.
-/
import proofs.«120767_j6347961664093_1_alg».proof.Proof.Gen.KernelIdeal.Frame
import proofs.«120767_j6347961664093_1_alg».proof.Proof.Row
import proofs.«120767_j6347961664093_1_alg».proof.Proof.RowValue
import proofs.«120767_j6347961664093_1_alg».proof.Proof.Spec
import Idealize.ShloMosaic.Lib.Pipeline.Value
import Idealize.ShloMosaic.Lib.ValueIdx

set_option maxRecDepth 16384

noncomputable section

namespace Cert.Mixer

open Idealize.ShloMosaic Idealize.ShloMosaic.ValueIdx Cert.KernelIdeal Cert.KernelIdeal.Gen

/-- The block after the body as ONE function of its index: entry (k, s, f) is slab k's result at (s, f). -/
def blockSpec (x0 : Vec Ideal S16x128x256 .f32) (x1 x2 : Vec Ideal S128x256 .f32) (x3 : Vec Ideal S128x128 .bf16)
    (x4 : Vec Ideal S128x1 .f32) (x5 : Vec Ideal S128x128 .bf16) (x6 : Vec Ideal S128x1 .f32) : Vec Ideal S16x128x256 .f32 :=
  fun y => Spec.out (fun s f => x0 (ix3 (y 0) s f)) (fun s f => x1 (ix2 s f)) (fun s f => x2 (ix2 s f))
    (fun s t => x3 (ix2 s t)) (fun s => x4 (ix2 s (0 : Fin 1))) (fun s t => x5 (ix2 s t)) (fun s => x6 (ix2 s (0 : Fin 1))) (y 1) (y 2)

section Operands

variable {F : FTy → Type} [FloatOps F]

theorem zero2 : (![0, 0] : Fin 2 → Nat) = fun _ => 0 := by
  funext a; match a with | ⟨0, _⟩ => rfl | ⟨1, _⟩ => rfl

/-- The gain, the shift, the matrices and the bias columns are loaded whole (and recast to their own shape). -/
theorem ld_whole_256 (v : Vec F S128x256 .f32) : View.ld v r0_0 = v := View.ld_unit_zero (S := S128x256) zero2 _ v
theorem mat_whole (v : Vec F S128x128 .bf16) : k0_pay1 (View.ld v r0_1) = v := by
  unfold k0_pay1; rw [shapeCast_self]; exact View.ld_unit_zero (S := S128x128) zero2 _ v
theorem mat_whole' (v : Vec F S128x128 .bf16) : k0_pay2 (View.ld v r0_1) = v := by
  unfold k0_pay2; rw [shapeCast_self]; exact View.ld_unit_zero (S := S128x128) zero2 _ v
theorem col_whole (v : Vec F S128x1 .f32) : k0_pay3 (View.ld v r0_2) = v := by
  unfold k0_pay3; rw [shapeCast_self]; exact View.ld_unit_zero (S := S128x1) zero2 _ v
theorem col_whole' (v : Vec F S128x1 .f32) : k0_pay4 (View.ld v r0_2) = v := by
  unfold k0_pay4; rw [shapeCast_self]; exact View.ld_unit_zero (S := S128x1) zero2 _ v

/-- The body's sixteen stores, each as the row function of its slab. -/
theorem out_as_rows (x0 : Vec F S16x128x256 .f32) (x1 x2 : Vec F S128x256 .f32) (x3 : Vec F S128x128 .bf16)
    (x4 : Vec F S128x1 .f32) (x5 : Vec F S128x128 .bf16) (x6 : Vec F S128x1 .f32) :
    out0_7 x0 x1 x2 x3 x4 x5 x6 = View.canon [
      ⟨r0_18, rowfn x1 x2 x3 x5 x4 x6 (View.ld x0 r0_18)⟩,
      ⟨r0_17, rowfn x1 x2 x3 x5 x4 x6 (View.ld x0 r0_17)⟩,
      ⟨r0_16, rowfn x1 x2 x3 x5 x4 x6 (View.ld x0 r0_16)⟩,
      ⟨r0_15, rowfn x1 x2 x3 x5 x4 x6 (View.ld x0 r0_15)⟩,
      ⟨r0_14, rowfn x1 x2 x3 x5 x4 x6 (View.ld x0 r0_14)⟩,
      ⟨r0_13, rowfn x1 x2 x3 x5 x4 x6 (View.ld x0 r0_13)⟩,
      ⟨r0_12, rowfn x1 x2 x3 x5 x4 x6 (View.ld x0 r0_12)⟩,
      ⟨r0_11, rowfn x1 x2 x3 x5 x4 x6 (View.ld x0 r0_11)⟩,
      ⟨r0_10, rowfn x1 x2 x3 x5 x4 x6 (View.ld x0 r0_10)⟩,
      ⟨r0_9, rowfn x1 x2 x3 x5 x4 x6 (View.ld x0 r0_9)⟩,
      ⟨r0_8, rowfn x1 x2 x3 x5 x4 x6 (View.ld x0 r0_8)⟩,
      ⟨r0_7, rowfn x1 x2 x3 x5 x4 x6 (View.ld x0 r0_7)⟩,
      ⟨r0_6, rowfn x1 x2 x3 x5 x4 x6 (View.ld x0 r0_6)⟩,
      ⟨r0_5, rowfn x1 x2 x3 x5 x4 x6 (View.ld x0 r0_5)⟩,
      ⟨r0_4, rowfn x1 x2 x3 x5 x4 x6 (View.ld x0 r0_4)⟩,
      ⟨r0_3, rowfn x1 x2 x3 x5 x4 x6 (View.ld x0 r0_3)⟩] := by
  unfold out0_7
  rw [row0, row1, row2, row3, row4, row5, row6, row7, row8, row9, row10, row11, row12, row13, row14, row15]
  simp only [ld_whole_256, mat_whole, mat_whole', col_whole, col_whole']

end Operands

/-- Piece k, at its own index z, is the block function at z placed in rows k. -/
theorem piece_reads (x0 : Vec Ideal S16x128x256 .f32) (x1 x2 : Vec Ideal S128x256 .f32) (x3 : Vec Ideal S128x128 .bf16)
    (x4 : Vec Ideal S128x1 .f32) (x5 : Vec Ideal S128x128 .bf16) (x6 : Vec Ideal S128x1 .f32)
    (k : Nat) (inb : ∀ a, (![k, 0, 0] : Fin 3 → Nat) a + S1x128x256.size a ≤ S16x128x256.size a) (z : S1x128x256.Idx) :
    rowfn x1 x2 x3 x5 x4 x6 (View.ld x0 (Rect.unit (s := S16x128x256) ![k, 0, 0] S1x128x256.size inb)) z
      = blockSpec x0 x1 x2 x3 x4 x5 x6 ((Rect.unit (s := S16x128x256) ![k, 0, 0] S1x128x256.size inb).emb z) := by
  obtain ⟨s, f, rfl⟩ : ∃ (s : Fin 128) (f : Fin 256), z = ix3 (0 : Fin 1) s f :=
    ⟨z 1, z 2, (eq_ix3 z).trans (by
      have hz : @Eq (Fin 1) (z 0) (0 : Fin 1) := @Fin.ext 1 (z 0) 0 (Nat.lt_one_iff.mp (z 0).isLt)
      exact congrArg (fun a : Fin 1 => ix3 a (z 1) (z 2)) hz)⟩
  rw [rowfn_apply]
  unfold blockSpec
  have e1 : ((Rect.unit (s := S16x128x256) ![k, 0, 0] S1x128x256.size inb).emb (ix3 (0 : Fin 1) s f)) 1 = s :=
    Fin.ext (by show 0 + 1 * s.val = s.val; omega)
  have e2 : ((Rect.unit (s := S16x128x256) ![k, 0, 0] S1x128x256.size inb).emb (ix3 (0 : Fin 1) s f)) 2 = f :=
    Fin.ext (by show 0 + 1 * f.val = f.val; omega)
  rw [e1, e2]
  congr 1
  funext s' f'
  show x0 ((Rect.unit (s := S16x128x256) ![k, 0, 0] S1x128x256.size inb).emb (ix3 (0 : Fin 1) s' f')) = x0 _
  congr 1
  funext a
  refine Fin.ext ?_
  match a with
  | ⟨0, _⟩ => show k + 1 * 0 = k + 1 * 0; rfl
  | ⟨1, _⟩ => show 0 + 1 * s'.val = s'.val; omega
  | ⟨2, _⟩ => show 0 + 1 * f'.val = f'.val; omega

/-- THE BLOCK AFTER THE BODY, at every index. -/
theorem out_apply (x0 : Vec Ideal S16x128x256 .f32) (x1 x2 : Vec Ideal S128x256 .f32) (x3 : Vec Ideal S128x128 .bf16)
    (x4 : Vec Ideal S128x1 .f32) (x5 : Vec Ideal S128x128 .bf16) (x6 : Vec Ideal S128x1 .f32) :
    out0_7 x0 x1 x2 x3 x4 x5 x6 = blockSpec x0 x1 x2 x3 x4 x5 x6 := by
  funext y
  rw [out_as_rows]
  refine View.canon_apply_of_pieces (blockSpec x0 x1 x2 x3 x4 x5 x6) _ ?_ y (cover0_7 _ _ _ _ _ _ _ _ _ _ _ _ _ _ _ _ y)
  intro p hp
  simp only [List.mem_cons, List.not_mem_nil, or_false] at hp
  rcases hp with rfl | rfl | rfl | rfl | rfl | rfl | rfl | rfl | rfl | rfl | rfl | rfl | rfl | rfl | rfl | rfl
  all_goals exact fun z => piece_reads x0 x1 x2 x3 x4 x5 x6 _ _ z

end Cert.Mixer

end
-- ==== Proof.KernelArray.lean ====
/-
  From blocks to the array.

  The call runs on a grid of 32 points. At point t the output window's block is rows 16·t … 16·t + 15 of the
  [512, 128, 256] result, and the first input's block is the same rows of the reshaped input; the other six inputs are
  staged whole at every point. So what point t writes back is rows 16·t … 16·t + 15 of ONE function of the arrays as
  the call finds them: row r of the result is slab r's result (Block.lean). The 32 blocks tile the 512 rows, so after
  the call the result array IS that function.
-/
import proofs.«120767_j6347961664093_1_alg».proof.Proof.Gen.KernelIdeal.Frame
import proofs.«120767_j6347961664093_1_alg».proof.Proof.Block
import Idealize.ShloMosaic.Lib.Pipeline.Value
import Idealize.ShloMosaic.Lib.ValueIdx

set_option maxRecDepth 16384

noncomputable section

namespace Cert.Mixer

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ)

/-- The [512, 128, 256] result as one function of the seven arrays the call is given: row r is slab r's result. -/
def slabs (X : Vec Ideal S512x128x256 .f32) (w β : Vec Ideal S128x256 .f32) (M₁ : Vec Ideal S128x128 .bf16)
    (b₁ : Vec Ideal S128x1 .f32) (M₂ : Vec Ideal S128x128 .bf16) (b₂ : Vec Ideal S128x1 .f32) : Vec Ideal S512x128x256 .f32 :=
  fun i => Spec.out (fun s f => X (ix3 (i 0) s f)) (fun s f => w (ix2 s f)) (fun s f => β (ix2 s f))
    (fun s t => M₁ (ix2 s t)) (fun s => b₁ (ix2 s (0 : Fin 1))) (fun s t => M₂ (ix2 s t)) (fun s => b₂ (ix2 s (0 : Fin 1))) (i 1) (i 2)

/-- Row k of a block and row r of the array have the same result when slab k of the block is slab r of the array. -/
theorem blockSpec_eq_slabs (x0 : Vec Ideal S16x128x256 .f32) (X : Vec Ideal S512x128x256 .f32) (w β : Vec Ideal S128x256 .f32)
    (M₁ : Vec Ideal S128x128 .bf16) (b₁ : Vec Ideal S128x1 .f32) (M₂ : Vec Ideal S128x128 .bf16) (b₂ : Vec Ideal S128x1 .f32)
    (k : Fin 16) (r : Fin 512) (s : Fin 128) (f : Fin 256) (hx : ∀ s' f', x0 (ix3 k s' f') = X (ix3 r s' f')) :
    blockSpec x0 w β M₁ b₁ M₂ b₂ (ix3 k s f) = slabs X w β M₁ b₁ M₂ b₂ (ix3 r s f) := by
  have e : (fun s' f' => x0 (ix3 k s' f')) = (fun s' f' => X (ix3 r s' f')) := funext fun s' => funext fun f' => hx s' f'
  show Spec.out (fun s' f' => x0 (ix3 k s' f')) _ _ _ _ _ _ s f = Spec.out (fun s' f' => X (ix3 r s' f')) _ _ _ _ _ _ s f
  rw [e]

/-- That function of the arrays as the call finds them on core c. -/
def result (c : Dev nD) : Vec Ideal S512x128x256 .f32 :=
  slabs (V m c main_v0) (V m c main_arg1) (V m c main_arg2) (V m c main_v2) (V m c main_v5) (V m c main_v4) (V m c main_v6)

/-- The printed index maps, decided over the 32 points: the first input and the output move together, block t at
    point t along the rows; every other window stays at block 0. -/
theorem index_facts : ∀ t : Fin cfg0.N,
    win0_0.index t (0 : Fin 3) = t.val ∧ win0_0.index t (1 : Fin 3) = 0 ∧ win0_0.index t (2 : Fin 3) = 0
    ∧ win0_7.index t (0 : Fin 3) = t.val ∧ win0_7.index t (1 : Fin 3) = 0 ∧ win0_7.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Entry (k, s, f) of the output's block at point t is entry (16·t + k, s, f) of the array. -/
theorem out_place (t : Fin cfg0.N) (k : Fin 16) (s : Fin 128) (f : Fin 256) :
    ((cfg0.win 7).blk t).view.emb (ix3 k s f)
      = ix3 (⟨16 * t.val + k.val, by have := t.isLt; have h32 : cfg0.N = 32 := N_0; have := k.isLt; omega⟩ : Fin 512) s f := by
  obtain ⟨-, -, -, e0, e1, e2, -⟩ := index_facts t
  funext a
  refine Fin.ext ?_
  match a with
  | ⟨0, _⟩ => show win0_7.index t (0 : Fin 3) * 16 + 1 * k.val = 16 * t.val + k.val; omega
  | ⟨1, _⟩ => show win0_7.index t (1 : Fin 3) * 128 + 1 * s.val = s.val; omega
  | ⟨2, _⟩ => show win0_7.index t (2 : Fin 3) * 256 + 1 * f.val = f.val; omega

/-- The first input's block at point t is the same rows of its array as the output's block. -/
theorem in_block (c : Dev nD) (t : Fin cfg0.N) (y : S16x128x256.Idx) :
    iblk m c 0 t y = V m c main_v0 (((cfg0.win 7).blk t).view.emb y) := by
  show V m c main_v0 (((cfg0.win 0).blk t).view.emb y) = V m c main_v0 (((cfg0.win 7).blk t).view.emb y)
  congr 1

/-- The gain is staged whole at every point. -/
theorem gain_block (c : Dev nD) (t : Fin cfg0.N) : iblk m c 1 t = V m c main_arg1 := by
  obtain ⟨-, -, -, -, -, -, e0, e1, -⟩ := index_facts t
  funext y
  show V m c main_arg1 (((cfg0.win 1).blk t).view.emb y) = V m c main_arg1 y
  congr 1
  funext a
  refine Fin.ext ?_
  match a with
  | ⟨0, _⟩ => show win0_1.index t (0 : Fin 2) * 128 + 1 * (y 0).val = (y 0).val; omega
  | ⟨1, _⟩ => show win0_1.index t (1 : Fin 2) * 256 + 1 * (y 1).val = (y 1).val; omega

/-- The shift likewise. -/
theorem shift_block (c : Dev nD) (t : Fin cfg0.N) : iblk m c 2 t = V m c main_arg2 := by
  obtain ⟨-, -, -, -, -, -, -, -, e0, e1, -⟩ := index_facts t
  funext y
  show V m c main_arg2 (((cfg0.win 2).blk t).view.emb y) = V m c main_arg2 y
  congr 1
  funext a
  refine Fin.ext ?_
  match a with
  | ⟨0, _⟩ => show win0_2.index t (0 : Fin 2) * 128 + 1 * (y 0).val = (y 0).val; omega
  | ⟨1, _⟩ => show win0_2.index t (1 : Fin 2) * 256 + 1 * (y 1).val = (y 1).val; omega

/-- The first mixing matrix likewise. -/
theorem mat1_block (c : Dev nD) (t : Fin cfg0.N) : iblk m c 3 t = V m c main_v2 := by
  obtain ⟨-, -, -, -, -, -, -, -, -, -, e0, e1, -⟩ := index_facts t
  funext y
  show V m c main_v2 (((cfg0.win 3).blk t).view.emb y) = V m c main_v2 y
  congr 1
  funext a
  refine Fin.ext ?_
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- Its bias column likewise. -/
theorem bias1_block (c : Dev nD) (t : Fin cfg0.N) : iblk m c 4 t = V m c main_v5 := by
  obtain ⟨-, -, -, -, -, -, -, -, -, -, -, -, e0, e1, -⟩ := index_facts t
  funext y
  show V m c main_v5 (((cfg0.win 4).blk t).view.emb y) = V m c main_v5 y
  congr 1
  funext a
  refine Fin.ext ?_
  match a with
  | ⟨0, _⟩ => show win0_4.index t (0 : Fin 2) * 128 + 1 * (y 0).val = (y 0).val; omega
  | ⟨1, _⟩ => show win0_4.index t (1 : Fin 2) * 1 + 1 * (y 1).val = (y 1).val; omega

/-- The second mixing matrix likewise. -/
theorem mat2_block (c : Dev nD) (t : Fin cfg0.N) : iblk m c 5 t = V m c main_v4 := by
  obtain ⟨-, -, -, -, -, -, -, -, -, -, -, -, -, -, e0, e1, -⟩ := index_facts t
  funext y
  show V m c main_v4 (((cfg0.win 5).blk t).view.emb y) = V m c main_v4 y
  congr 1
  funext a
  refine Fin.ext ?_
  match a with
  | ⟨0, _⟩ => show win0_5.index t (0 : Fin 2) * 128 + 1 * (y 0).val = (y 0).val; omega
  | ⟨1, _⟩ => show win0_5.index t (1 : Fin 2) * 128 + 1 * (y 1).val = (y 1).val; omega

/-- Its bias column likewise. -/
theorem bias2_block (c : Dev nD) (t : Fin cfg0.N) : iblk m c 6 t = V m c main_v6 := by
  obtain ⟨-, -, -, -, -, -, -, -, -, -, -, -, -, -, -, -, e0, e1⟩ := index_facts t
  funext y
  show V m c main_v6 (((cfg0.win 6).blk t).view.emb y) = V m c main_v6 y
  congr 1
  funext a
  refine Fin.ext ?_
  match a with
  | ⟨0, _⟩ => show win0_6.index t (0 : Fin 2) * 128 + 1 * (y 0).val = (y 0).val; omega
  | ⟨1, _⟩ => show win0_6.index t (1 : Fin 2) * 1 + 1 * (y 1).val = (y 1).val; omega

/-- WHAT POINT t WRITES BACK is block t of `result`. -/
theorem flushed_eq (c : Dev nD) (t : Fin cfg0.N) :
    (dats m 0 c).flushed 7 t = ((cfg0.win 7).blk t).view.read (Elt Ideal) (result m c) := by
  show (cfg0.win 7).cut (grid0.coords t) ((dats m 0 c).after 7 t) = _
  rw [after0_7, out_apply, gain_block, shift_block, mat1_block, bias1_block, mat2_block, bias2_block]
  funext j
  obtain ⟨k, s, f, rfl⟩ : ∃ (k : Fin 16) (s : Fin 128) (f : Fin 256), j = ix3 k s f := ⟨j 0, j 1, j 2, eq_ix3 j⟩
  show blockSpec (iblk m c 0 t) (V m c main_arg1) (V m c main_arg2) (V m c main_v2) (V m c main_v5) (V m c main_v4) (V m c main_v6) (ix3 k s f)
    = result m c (((cfg0.win 7).blk t).view.emb (ix3 k s f))
  rw [out_place]
  exact blockSpec_eq_slabs (iblk m c 0 t) (V m c main_v0) (V m c main_arg1) (V m c main_arg2) (V m c main_v2) (V m c main_v5)
    (V m c main_v4) (V m c main_v6) k _ s f (fun s' f' => by rw [in_block, out_place])

/-- An index of the array is in point t's block iff each coordinate is in the block's range on its axis. -/
theorem mem_block (t : Fin cfg0.N) (i : S512x128x256.Idx) :
    i ∈ ((cfg0.win 7).blk t).view.set ↔ ∀ a : Fin 3, win0_7.index t a * S16x128x256.size a ≤ (i a).val ∧ (i a).val < win0_7.index t a * S16x128x256.size a + S16x128x256.size a := by
  show i ∈ ((View.whole main_v7).slice (win0_7.rect t)).set ↔ _
  rw [View.set_slice_whole, Rect.mem_set_unit]
  exact Iff.rfl

/-- Every row of the array is in the block of the point 16 rows wide that holds it. -/
theorem covered (i : S512x128x256.Idx) : ∃ t : Fin cfg0.N, (cfg0.win 7).flush t = true ∧ i ∈ ((cfg0.win 7).blk t).view.set := by
  have hi0 : (i 0).val < 512 := (i 0).isLt
  have hi1 : (i 1).val < 128 := (i 1).isLt
  have hi2 : (i 2).val < 256 := (i 2).isLt
  have h32 : cfg0.N = 32 := N_0
  refine ⟨⟨(i 0).val / 16, by omega⟩, flush0_7 _, ?_⟩
  obtain ⟨-, -, -, e0, e1, e2, -⟩ := index_facts ⟨(i 0).val / 16, by omega⟩
  rw [mem_block]
  intro a
  match a with
  | ⟨0, _⟩ =>
    show win0_7.index ⟨(i 0).val / 16, _⟩ (0 : Fin 3) * 16 ≤ (i 0).val ∧ (i 0).val < win0_7.index ⟨(i 0).val / 16, _⟩ (0 : Fin 3) * 16 + 16
    rw [e0]; show (i 0).val / 16 * 16 ≤ (i 0).val ∧ (i 0).val < (i 0).val / 16 * 16 + 16; omega
  | ⟨1, _⟩ =>
    show win0_7.index ⟨(i 0).val / 16, _⟩ (1 : Fin 3) * 128 ≤ (i 1).val ∧ (i 1).val < win0_7.index ⟨(i 0).val / 16, _⟩ (1 : Fin 3) * 128 + 128
    rw [e1]; omega
  | ⟨2, _⟩ =>
    show win0_7.index ⟨(i 0).val / 16, _⟩ (2 : Fin 3) * 256 ≤ (i 2).val ∧ (i 2).val < win0_7.index ⟨(i 0).val / 16, _⟩ (2 : Fin 3) * 256 + 256
    rw [e2]; omega

/-- THE RESULT ARRAY after the call. -/
theorem final (c : Dev nD) : (dats m 0 c).arrAt 7 cfg0.N = result m c :=
  (dats m 0 c).arrAt_eq_of_cover 7 (result m c) (fun t _ => flushed_eq m c t) covered

end Cert.Mixer

end
-- ==== Proof.KernelRun.lean ====
/-
  The idealized kernel's run, with its result named.

  Before the call @main reshapes x : [64, 8, 128, 256] to [512, 128, 256] (slab (b, c) becomes row 8·b + c), takes the
  lower-triangular part of each mixing matrix, and turns each bias vector into a column; after the call it reshapes the
  [512, 128, 256] result back. Row r of the call's result is slab r's result (KernelArray.lean), so entry (b, c, s, f) of
  the program's result is slab (b, c)'s result at (s, f): the specification's array `Spec.G` of the seven arguments, the
  matrices through `tril`.
-/
import proofs.«120767_j6347961664093_1_alg».proof.Proof.KernelArray
import Idealize.ShloMosaic.Lib.StableHlo.Run
import Idealize.ShloMosaic.Lib.Pipeline.Value
import Idealize.ShloMosaic.Lib.ValueIdx

set_option maxRecDepth 16384

noncomputable section

namespace Cert.Mixer

open Idealize.ShloMosaic Idealize.ShloMosaic.ValueIdx Idealize.ShloMosaic.TcCoe Idealize.SL.Sem Idealize.ShloMosaic.StableHlo
open Cert.KernelIdeal Cert.KernelIdeal.Gen

/-- The lower-triangular part of a 128 × 128 matrix as the program takes it: entry (s, t) is kept where s + 0 ≥ t and is
    the zero word elsewhere. -/
def tril (W : FVec Ideal S128x128 .f32) : FVec Ideal S128x128 .f32 :=
  select
    (cmpi .sge (addi (iotaInDim S128x128 32 0) (broadcastInDim S128x128 ![] bcast_S_S128x128 (constantI S_ 32 0#32)))
      (iotaInDim S128x128 32 1))
    W (broadcastInDim S128x128 ![] bcast_S_S128x128 (constant (F := Ideal) S_ .f32 0x00000000#32))

variable (m : (ℓ : Loc nD τ sig) → Buf (Elt Ideal) ℓ)

/-! ## The arrays as the call finds them -/

theorem entry_x (c : Dev nD) : (V m c main_v0 : Vec Ideal S512x128x256 .f32)
    = shapeCast S512x128x256 (m ((c.tc : Thread nD τ).loc main_arg0)) shapeCasts_S64x8x128x256_S512x128x256 := by
  dsimp only [V, V0]
  simp only [hostOps0, hostOps0_1, hostOps0_2, hostOps0_3, hostOps0_4, List.flatten_cons, List.flatten_nil, List.append_nil,
    List.cons_append, List.nil_append]
  after_results
  rfl

theorem entry_mat1 (c : Dev nD) : (V m c main_v2 : Vec Ideal S128x128 .bf16)
    = truncf .bf16 (tril (m ((c.tc : Thread nD τ).loc main_arg3))) bitsLt_bf16_f32 := by
  dsimp only [V, V0]
  simp only [hostOps0, hostOps0_1, hostOps0_2, hostOps0_3, hostOps0_4, List.flatten_cons, List.flatten_nil, List.append_nil,
    List.cons_append, List.nil_append]
  after_results
  rfl

theorem entry_mat2 (c : Dev nD) : (V m c main_v4 : Vec Ideal S128x128 .bf16)
    = truncf .bf16 (tril (m ((c.tc : Thread nD τ).loc main_arg5))) bitsLt_bf16_f32 := by
  dsimp only [V, V0]
  simp only [hostOps0, hostOps0_1, hostOps0_2, hostOps0_3, hostOps0_4, List.flatten_cons, List.flatten_nil, List.append_nil,
    List.cons_append, List.nil_append]
  after_results
  rfl

theorem entry_bias1 (c : Dev nD) : (V m c main_v5 : Vec Ideal S128x1 .f32)
    = shapeCast S128x1 (m ((c.tc : Thread nD τ).loc main_arg4)) shapeCasts_S128_S128x1 := by
  dsimp only [V, V0]
  simp only [hostOps0, hostOps0_1, hostOps0_2, hostOps0_3, hostOps0_4, List.flatten_cons, List.flatten_nil, List.append_nil,
    List.cons_append, List.nil_append]
  after_results
  rfl

theorem entry_bias2 (c : Dev nD) : (V m c main_v6 : Vec Ideal S128x1 .f32)
    = shapeCast S128x1 (m ((c.tc : Thread nD τ).loc main_arg6)) shapeCasts_S128_S128x1 := by
  dsimp only [V, V0]
  simp only [hostOps0, hostOps0_1, hostOps0_2, hostOps0_3, hostOps0_4, List.flatten_cons, List.flatten_nil, List.append_nil,
    List.cons_append, List.nil_append]
  after_results
  rfl

/-! ## The reshapes around the call only rename the index -/

/-- Slab (b, c) of x is row 8·b + c of the reshaped x, and back; a bias vector is its column. -/
theorem slabs_reshaped (X : Vec Ideal S64x8x128x256 .f32) (w β : Vec Ideal S128x256 .f32) (M₁ M₂ : FVec Ideal S128x128 .f32)
    (b₁ b₂ : Vec Ideal S128 .f32) :
    shapeCast S64x8x128x256
        (slabs (shapeCast S512x128x256 X shapeCasts_S64x8x128x256_S512x128x256) w β (truncf .bf16 M₁ bitsLt_bf16_f32)
          (shapeCast S128x1 b₁ shapeCasts_S128_S128x1) (truncf .bf16 M₂ bitsLt_bf16_f32) (shapeCast S128x1 b₂ shapeCasts_S128_S128x1))
        shapeCasts_S512x128x256_S64x8x128x256
      = Spec.G X w β M₁ b₁ M₂ b₂ := by
  funext i
  obtain ⟨b, c, s, f, rfl⟩ : ∃ (b : Fin 64) (c : Fin 8) (s : Fin 128) (f : Fin 256), i = ix4 b c s f :=
    ⟨i 0, i 1, i 2, i 3, eq_ix4 i⟩
  have hr : 8 * b.val + c.val < 512 := by have := b.isLt; have := c.isLt; omega
  rw [Spec.G_apply]
  refine (shapeCast_apply _ shapeCasts_S512x128x256_S64x8x128x256 (ix4 b c s f) (ix3 (⟨8 * b.val + c.val, hr⟩ : Fin 512) s f) (by
    rw [Shape.rowMajor_val_three, Shape.rowMajor_val_four]
    show ((8 * b.val + c.val) * 128 + s.val) * 256 + f.val = ((b.val * 8 + c.val) * 128 + s.val) * 256 + f.val
    omega)).trans ?_
  have hx : (fun s' f' => shapeCast S512x128x256 X shapeCasts_S64x8x128x256_S512x128x256 (ix3 (⟨8 * b.val + c.val, hr⟩ : Fin 512) s' f'))
      = fun s' f' => X (ix4 b c s' f') := by
    funext s' f'
    exact shapeCast_apply X shapeCasts_S64x8x128x256_S512x128x256 _ (ix4 b c s' f') (by
      rw [Shape.rowMajor_val_three, Shape.rowMajor_val_four]
      show ((b.val * 8 + c.val) * 128 + s'.val) * 256 + f'.val = ((8 * b.val + c.val) * 128 + s'.val) * 256 + f'.val
      omega)
  have hb : ∀ v : Vec Ideal S128 .f32, (fun s' : Fin 128 => shapeCast S128x1 v shapeCasts_S128_S128x1 (ix2 s' (0 : Fin 1))) = fun s' => v (ix1 s') :=
    fun v => funext fun s' => shapeCast_a_a1_apply v shapeCasts_S128_S128x1 s' 0
  show Spec.out (fun s' f' => shapeCast S512x128x256 X shapeCasts_S64x8x128x256_S512x128x256 (ix3 (⟨8 * b.val + c.val, hr⟩ : Fin 512) s' f'))
      (fun s f => w (ix2 s f)) (fun s f => β (ix2 s f)) (fun s t => M₁ (ix2 s t))
      (fun s' : Fin 128 => shapeCast S128x1 b₁ shapeCasts_S128_S128x1 (ix2 s' (0 : Fin 1))) (fun s t => M₂ (ix2 s t))
      (fun s' : Fin 128 => shapeCast S128x1 b₂ shapeCasts_S128_S128x1 (ix2 s' (0 : Fin 1))) s f = _
  rw [hx, hb b₁, hb b₂]

/-! ## After the call -/

/-- The program's result buffer after the reshape that follows the call. -/
theorem tail_eq (c : Dev nD) :
    Pipeline.afterTail₀ cfgs (dats m) 0 (V0 m) [hostOps1] c main_v8
      = shapeCast S64x8x128x256 (result m c) shapeCasts_S512x128x256_S64x8x128x256 := by
  unfold Pipeline.afterTail₀
  show StableHlo.after hostOps1 _ (Proc.devRef .tc main_v8) = _
  after_results
  rw [(Pipeline.withArrays_arr spec0 launch0.win.arr_inj c _ _ 7).trans (final m c)]
  rfl

/-- THE KERNEL'S VALUE: the specification's array of the seven arguments. -/
theorem value (c : Dev nD) :
    Pipeline.afterTail₀ cfgs (dats m) 0 (V0 m) [hostOps1] c main_v8
      = Spec.G (m ((c.tc : Thread nD τ).loc main_arg0)) (m ((c.tc : Thread nD τ).loc main_arg1)) (m ((c.tc : Thread nD τ).loc main_arg2))
          (tril (m ((c.tc : Thread nD τ).loc main_arg3))) (m ((c.tc : Thread nD τ).loc main_arg4))
          (tril (m ((c.tc : Thread nD τ).loc main_arg5))) (m ((c.tc : Thread nD τ).loc main_arg6)) := by
  rw [tail_eq]
  unfold result
  rw [entry_x, entry_mat1, entry_mat2, entry_bias1, entry_bias2, V_main_arg1, V_main_arg2]
  exact slabs_reshaped _ _ _ _ _ _ _

/-- THE RUN: every weakly fair execution of the idealized kernel's @main terminates with its result at `Spec.G` of the
    arguments and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v8)
        = Spec.G (m ((c.tc : Thread nD τ).loc main_arg0)) (m ((c.tc : Thread nD τ).loc main_arg1)) (m ((c.tc : Thread nD τ).loc main_arg2))
            (tril (m ((c.tc : Thread nD τ).loc main_arg3))) (m ((c.tc : Thread nD τ).loc main_arg4))
            (tril (m ((c.tc : Thread nD τ).loc main_arg5))) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
      ⟨((h c).2 main_v8 (Pipeline.mem_restRefs_of main_v8 (by decide) (by decide))).trans (value m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

end Cert.Mixer

end
-- ==== Proof.RefValue.lean ====
/-
  The reference program's result, read one operation at a time, is the specification's array: entry (b, c, s, f) is
  slab (b, c)'s LayerNorm, plus the second token-mixing layer of the hardswish of the first. The two reductions over the
  last two axes are read by hand as double sums over a slab; every other stage reads at an index from its operands.
  The reference differs from the specification in three spellings only: a quotient by 32768 where the specification
  multiplies by 2⁻¹⁵, a sum started from the zero word, and the factors of each product of a contraction in the other order.
-/
import proofs.«120767_j6347961664093_1_alg».proof.Proof.Gen.ReferenceIdeal.Read
import proofs.«120767_j6347961664093_1_alg».proof.Proof.Spec
import Idealize.ShloMosaic.Lib.ValueIdx
import Idealize.ShloMosaic.Lib.IdealHost
import Idealize.ShloMosaic.Lib.Pipeline.Value
import Idealize.ShloMosaic.PureOps.Ideal.Laws

noncomputable section

namespace Cert.Mixer.Ref

open Idealize.ShloMosaic Idealize.ShloMosaic.ValueIdx Cert.ReferenceIdeal Cert.ReferenceIdeal.Read
open Cert.Mixer

/-! ## A sum over the last two of four axes -/

/-- Dropping the last two coordinates lands on (b, c) exactly when the first two coordinates are b and c. -/
theorem drop_eq_iff (h : S64x8x128x256.ReducesTo [2, 3] S64x8) (i : S64x8x128x256.Idx) (b : Fin 64) (c : Fin 8) :
    h.drop i = ix2 b c ↔ i 0 = b ∧ i 1 = c := by
  have h0 : (h.drop i 0 : Nat) = i 0 := Shape.ReducesTo.drop_apply_val_of_eq h i 0 0
  have h1 : (h.drop i 1 : Nat) = i 1 := Shape.ReducesTo.drop_apply_val_of_eq h i 1 1
  constructor
  · intro e
    rw [e] at h0 h1
    exact ⟨Fin.ext h0.symm, Fin.ext h1.symm⟩
  · rintro ⟨e0, e1⟩
    funext a
    match a with
    | ⟨0, _⟩ => exact Fin.ext (h0.trans (congrArg Fin.val e0))
    | ⟨1, _⟩ => exact Fin.ext (h1.trans (congrArg Fin.val e1))

/-- The host's sum over axes 2 and 3 of a [64, 8, 128, 256] array, read at (b, c): the initial value plus the double sum
    over slab (b, c). The indices that drop to (b, c) are in bijection with the pairs (s, f). -/
theorem reduce23 (h : S64x8x128x256.ReducesTo [2, 3] S64x8) (x : S64x8x128x256.Idx → EReal) (init : EReal)
    (b : Fin 64) (c : Fin 8) :
    Ideal.hostReduceAdd h x init (ix2 b c) = init + ∑ s : Fin 128, ∑ f : Fin 256, x (ix4 b c s f) := by
  unfold Ideal.hostReduceAdd
  congr 1
  rw [← Fintype.sum_prod_type' (f := fun s f => x (ix4 b c s f))]
  refine Finset.sum_bij' (fun i _ => (i 2, i 3)) (fun p _ => ix4 b c p.1 p.2) (fun _ _ => Finset.mem_univ _) ?_ ?_ ?_ ?_
  · intro p _
    rw [Finset.mem_filter]
    exact ⟨Finset.mem_univ _, (drop_eq_iff h _ b c).2 ⟨rfl, rfl⟩⟩
  · intro i hi
    rw [Finset.mem_filter] at hi
    obtain ⟨e0, e1⟩ := (drop_eq_iff h i b c).1 hi.2
    subst e0; subst e1
    exact (eq_ix4 i).symm
  · intro p _
    rfl
  · intro i hi
    rw [Finset.mem_filter] at hi
    obtain ⟨e0, e1⟩ := (drop_eq_iff h i b c).1 hi.2
    subst e0; subst e1
    exact congrArg x (eq_ix4 i)

/-! ## The index functions of the layout operations, at coordinates -/

section Indices
variable (b : Fin 64) (c : Fin 8)

theorem idx_v1 (u v : Fin 1) : idx_main_v1 (ix4 b c u v) = ix2 b c :=
  funext fun a => Fin.ext (by match a with | ⟨0, _⟩ => rfl | ⟨1, _⟩ => rfl)
theorem idx_v8 (u v : Fin 1) : idx_main_v8 (ix4 b c u v) = ix2 b c :=
  funext fun a => Fin.ext (by match a with | ⟨0, _⟩ => rfl | ⟨1, _⟩ => rfl)
theorem idx_v4 (s : Fin 128) (f : Fin 256) : idx_main_v4 (ix4 b c s f) = ix4 b c (0 : Fin 1) (0 : Fin 1) :=
  funext fun a => Fin.ext (by match a with | ⟨0, _⟩ => rfl | ⟨1, _⟩ => rfl | ⟨2, _⟩ => rfl | ⟨3, _⟩ => rfl)
theorem idx_v11 (s : Fin 128) (f : Fin 256) : idx_main_v11 (ix4 b c s f) = ix4 b c (0 : Fin 1) (0 : Fin 1) :=
  funext fun a => Fin.ext (by match a with | ⟨0, _⟩ => rfl | ⟨1, _⟩ => rfl | ⟨2, _⟩ => rfl | ⟨3, _⟩ => rfl)
theorem idx_v16 (s : Fin 128) (f : Fin 256) : idx_main_v16 (ix4 b c s f) = ix4 b c (0 : Fin 1) (0 : Fin 1) :=
  funext fun a => Fin.ext (by match a with | ⟨0, _⟩ => rfl | ⟨1, _⟩ => rfl | ⟨2, _⟩ => rfl | ⟨3, _⟩ => rfl)
theorem idx_v19 (s : Fin 128) (f : Fin 256) : idx_main_v18 (idx_main_v19 (ix4 b c s f)) = ix2 s f :=
  funext fun a => Fin.ext (by match a with | ⟨0, _⟩ => rfl | ⟨1, _⟩ => rfl)
theorem idx_v22 (s : Fin 128) (f : Fin 256) : idx_main_v21 (idx_main_v22 (ix4 b c s f)) = ix2 s f :=
  funext fun a => Fin.ext (by match a with | ⟨0, _⟩ => rfl | ⟨1, _⟩ => rfl)
theorem idx_v24 (f : Fin 256) (s : Fin 128) : idx_main_v24 (ix4 b c f s) = ix4 b c s f :=
  funext fun a => Fin.ext (by match a with | ⟨0, _⟩ => rfl | ⟨1, _⟩ => rfl | ⟨2, _⟩ => rfl | ⟨3, _⟩ => rfl)
theorem idx_v42 (s : Fin 128) (f : Fin 256) : idx_main_v42 (ix4 b c s f) = ix4 b c f s :=
  funext fun a => Fin.ext (by match a with | ⟨0, _⟩ => rfl | ⟨1, _⟩ => rfl | ⟨2, _⟩ => rfl | ⟨3, _⟩ => rfl)
theorem idx_v29 (f : Fin 256) (s : Fin 128) : idx_main_v28 (idx_main_v29 (ix4 b c f s)) = ix1 s :=
  funext fun a => Fin.ext (by match a with | ⟨0, _⟩ => rfl)
theorem idx_v39 (f : Fin 256) (s : Fin 128) : idx_main_v38 (idx_main_v39 (ix4 b c f s)) = ix1 s :=
  funext fun a => Fin.ext (by match a with | ⟨0, _⟩ => rfl)
theorem lidx_v27 (f : Fin 256) (s k : Fin 128) : lidx_main_v27 (ix4 b c f s) k = ix4 b c f k :=
  funext fun a => Fin.ext (by match a with | ⟨0, _⟩ => rfl | ⟨1, _⟩ => rfl | ⟨2, _⟩ => rfl | ⟨3, _⟩ => rfl)
theorem ridx_v27 (f : Fin 256) (s k : Fin 128) : ridx_main_v27 (ix4 b c f s) k = ix2 s k :=
  funext fun a => Fin.ext (by match a with | ⟨0, _⟩ => rfl | ⟨1, _⟩ => rfl)
theorem lidx_v37 (f : Fin 256) (s k : Fin 128) : lidx_main_v37 (ix4 b c f s) k = ix4 b c f k :=
  funext fun a => Fin.ext (by match a with | ⟨0, _⟩ => rfl | ⟨1, _⟩ => rfl | ⟨2, _⟩ => rfl | ⟨3, _⟩ => rfl)
theorem ridx_v37 (f : Fin 256) (s k : Fin 128) : ridx_main_v37 (ix4 b c f s) k = ix2 s k :=
  funext fun a => Fin.ext (by match a with | ⟨0, _⟩ => rfl | ⟨1, _⟩ => rfl)

end Indices

/-! ## The stages, bottom-up, at coordinates -/

section Stages
variable (x0 : (⟨S64x8x128x256, .f32⟩ : BufTy).Contents (Elt Ideal)) (x1 x2 : (⟨S128x256, .f32⟩ : BufTy).Contents (Elt Ideal))
  (x3 : (⟨S128x128, .f32⟩ : BufTy).Contents (Elt Ideal)) (x4 : (⟨S128, .f32⟩ : BufTy).Contents (Elt Ideal))
  (x5 : (⟨S128x128, .f32⟩ : BufTy).Contents (Elt Ideal)) (x6 : (⟨S128, .f32⟩ : BufTy).Contents (Elt Ideal))
  (b : Fin 64) (c : Fin 8)

/-- The first reduction at (b, c) is slab (b, c)'s sum: the zero it starts from adds nothing. -/
theorem v0_at : val_main_v0 (F := Ideal) x0 (ix2 b c) = ∑ s : Fin 128, ∑ f : Fin 256, x0 (ix4 b c s f) := by
  unfold val_main_v0
  rw [hostReduceAdd_apply, reduce23, val_main_cst_apply, Ideal.ofBits_def]
  exact Spec.zero_add' _

/-- The quotient of that sum by 32768 is the slab's mean. -/
theorem v3_at (u v : Fin 1) :
    val_main_v3 (F := Ideal) x0 (ix4 b c u v) = Spec.mean (fun s f => x0 (ix4 b c s f)) := by
  rw [val_main_v3_apply, val_main_v1_apply, val_main_v2_apply, val_main_cst_0_apply, idx_v1, v0_at,
    Ideal.hostDivf_def, Ideal.ofBits_def]
  exact Spec.div_bigN _

theorem v5_at (s : Fin 128) (f : Fin 256) :
    val_main_v5 (F := Ideal) x0 (ix4 b c s f) = Spec.dev (fun s f => x0 (ix4 b c s f)) s f := by
  rw [val_main_v5_apply, val_main_v4_apply, idx_v4, v3_at, Ideal.subf_def]
  rfl

/-- The second reduction at (b, c) is the sum of the squared deviations of slab (b, c). -/
theorem v7_at : val_main_v7 (F := Ideal) x0 (ix2 b c)
    = ∑ s : Fin 128, ∑ f : Fin 256, Spec.dev (fun s f => x0 (ix4 b c s f)) s f * Spec.dev (fun s f => x0 (ix4 b c s f)) s f := by
  unfold val_main_v7
  rw [hostReduceAdd_apply, reduce23, val_main_cst_1_apply, Ideal.ofBits_def]
  refine (Spec.zero_add' _).trans ?_
  refine Finset.sum_congr rfl fun s _ => Finset.sum_congr rfl fun f _ => ?_
  rw [val_main_v6_apply, v5_at, Ideal.mulf_def]

theorem v10_at (u v : Fin 1) :
    val_main_v10 (F := Ideal) x0 (ix4 b c u v) = Spec.var (fun s f => x0 (ix4 b c s f)) := by
  rw [val_main_v10_apply, val_main_v8_apply, val_main_v9_apply, val_main_cst_2_apply, idx_v8, v7_at,
    Ideal.hostDivf_def, Ideal.ofBits_def]
  exact Spec.div_bigN _

theorem v12_at (s : Fin 128) (f : Fin 256) :
    val_main_v12 (F := Ideal) x0 (ix4 b c s f) = Spec.dev (fun s f => x0 (ix4 b c s f)) s f := by
  rw [val_main_v12_apply, val_main_v11_apply, idx_v11, v3_at, Ideal.subf_def]
  rfl

theorem v16_at (s : Fin 128) (f : Fin 256) :
    val_main_v16 (F := Ideal) x0 (ix4 b c s f) = Ideal.rsqrt (Spec.var (fun s f => x0 (ix4 b c s f)) + Spec.eps) := by
  rw [val_main_v16_apply, idx_v16, val_main_v15_apply, val_main_v14_apply, v10_at, val_main_v13_apply,
    val_main_cst_3_apply, Ideal.hostUnary_rsqrt_def, Ideal.addf_def, Ideal.ofBits_def]
  rfl

/-- The normalised slab with gain and shift. -/
theorem v23_at (s : Fin 128) (f : Fin 256) :
    val_main_v23 (F := Ideal) x0 x1 x2 (ix4 b c s f)
      = Spec.xn (fun s f => x0 (ix4 b c s f)) (fun s f => x1 (ix2 s f)) (fun s f => x2 (ix2 s f)) s f := by
  rw [val_main_v23_apply, val_main_v20_apply, val_main_v17_apply, v12_at, v16_at, val_main_v19_apply,
    val_main_v18_apply, idx_v19, val_main_v22_apply, val_main_v21_apply, idx_v22]
  simp only [Ideal.addf_def, Ideal.mulf_def]
  rfl

/-- … and transposed. -/
theorem v24_at (f : Fin 256) (s : Fin 128) :
    val_main_v24 (F := Ideal) x0 x1 x2 (ix4 b c f s)
      = Spec.xn (fun s f => x0 (ix4 b c s f)) (fun s f => x1 (ix2 s f)) (fun s f => x2 (ix2 s f)) s f := by
  rw [val_main_v24_apply, idx_v24, v23_at]

/-- A contraction of a transposed slab's last axis with a matrix's second axis is the matrix applied along the token axis:
    each product is commuted. -/
theorem dot_at (Y : S64x8x256x128.Idx → EReal) (M : S128x128.Idx → EReal) (v : Fin 128 → Fin 256 → EReal)
    (f : Fin 256) (s : Fin 128) (hY : ∀ k : Fin 128, Y (ix4 b c f k) = v k f) :
    ∑ k : Fin 128, Y (lidx_main_v27 (ix4 b c f s) k) * M (ridx_main_v27 (ix4 b c f s) k)
      = ∑ t : Fin 128, M (ix2 s t) * v t f := by
  refine Finset.sum_congr rfl fun k _ => ?_
  rw [lidx_v27, ridx_v27, hY, mul_comm]

/-- The first mixing layer. -/
theorem v30_at (f : Fin 256) (s : Fin 128) :
    val_main_v30 (F := Ideal) x0 x1 x2 x3 x4 (ix4 b c f s)
      = Spec.lin (fun s t => val_main_v25 (F := Ideal) x3 (ix2 s t)) (fun s => x4 (ix1 s))
          (Spec.xn (fun s f => x0 (ix4 b c s f)) (fun s f => x1 (ix2 s f)) (fun s f => x2 (ix2 s f))) s f := by
  rw [val_main_v30_apply, val_main_v27_apply, val_main_v29_apply, val_main_v28_apply, idx_v29, Ideal.addf_def]
  generalize val_main_v25 (F := Ideal) x3 = M
  rw [dot_at b c (val_main_v24 (F := Ideal) x0 x1 x2) M _ f s (fun k => v24_at x0 x1 x2 b c f k)]
  rfl

/-- hardswish of the first layer. -/
theorem v36_at (f : Fin 256) (s : Fin 128) :
    val_main_v36 (F := Ideal) x0 x1 x2 x3 x4 (ix4 b c f s)
      = Spec.hsw (Spec.lin (fun s t => val_main_v25 (F := Ideal) x3 (ix2 s t)) (fun s => x4 (ix1 s))
          (Spec.xn (fun s f => x0 (ix4 b c s f)) (fun s f => x1 (ix2 s f)) (fun s f => x2 (ix2 s f))) s f) := by
  rw [val_main_v36_apply, val_main_v34_apply, val_main_v33_apply, val_main_call2_v2_apply, val_main_v32_apply, v30_at,
    val_main_call2_v4_apply, val_main_call2_v3_apply, val_main_cst_6_apply, val_main_call2_v1_apply,
    val_main_call2_v0_apply, val_main_cst_5_apply, val_main_v31_apply, val_main_cst_4_apply, val_main_v35_apply,
    val_main_cst_7_apply]
  generalize Spec.lin _ _ _ s f = z
  simp only [Ideal.addf_def, Ideal.mulf_def, Ideal.maximumf_def, Ideal.minimumf_def, Ideal.ofBits_def]
  rfl

/-- The second mixing layer. -/
theorem v40_at (f : Fin 256) (s : Fin 128) :
    val_main_v40 (F := Ideal) x0 x1 x2 x3 x4 x5 x6 (ix4 b c f s)
      = Spec.lin (fun s t => val_main_v26 (F := Ideal) x5 (ix2 s t)) (fun s => x6 (ix1 s))
          (fun t g => Spec.hsw (Spec.lin (fun s t => val_main_v25 (F := Ideal) x3 (ix2 s t)) (fun s => x4 (ix1 s))
            (Spec.xn (fun s f => x0 (ix4 b c s f)) (fun s f => x1 (ix2 s f)) (fun s f => x2 (ix2 s f))) t g)) s f := by
  rw [val_main_v40_apply, val_main_v37_apply, val_main_v39_apply, val_main_v38_apply, idx_v39, Ideal.addf_def]
  generalize val_main_v26 (F := Ideal) x5 = M
  refine (congrArg (· + x6 (ix1 s)) (dot_at b c (val_main_v36 (F := Ideal) x0 x1 x2 x3 x4) M
    (fun t g => Spec.hsw (Spec.lin (fun s t => val_main_v25 (F := Ideal) x3 (ix2 s t)) (fun s => x4 (ix1 s))
            (Spec.xn (fun s f => x0 (ix4 b c s f)) (fun s f => x1 (ix2 s f)) (fun s f => x2 (ix2 s f))) t g))
    f s (fun k => v36_at x0 x1 x2 x3 x4 b c f k))).trans ?_
  rfl

end Stages

/-- The reference program's result is the specification's array, at the extended reals. -/
theorem ref_eq_G (x0 : (⟨S64x8x128x256, .f32⟩ : BufTy).Contents (Elt Ideal)) (x1 x2 : (⟨S128x256, .f32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal)) :
    val_main_v42 (F := Ideal) x0 x1 x2 x3 x4 x5 x6
      = Cert.Mixer.Spec.G x0 x1 x2 (val_main_v25 (F := Ideal) x3) x4 (val_main_v26 (F := Ideal) x5) x6 := by
  funext i
  obtain ⟨b, c, s, f, rfl⟩ : ∃ (b : Fin 64) (c : Fin 8) (s : Fin 128) (f : Fin 256), i = ix4 b c s f :=
    ⟨i 0, i 1, i 2, i 3, eq_ix4 i⟩
  rw [Spec.G_apply, val_main_v42_apply, idx_v42, val_main_v41_apply, v24_at, v40_at, Ideal.addf_def]
  generalize val_main_v25 (F := Ideal) x3 = M₁
  generalize val_main_v26 (F := Ideal) x5 = M₂
  rfl

end Cert.Mixer.Ref
end
-- ==== Proof.lean ====
/-
  A token-mixing block on x : [64, 8, 128, 256]: each of the 512 slabs x[b, c] (128 tokens × 256 features) is normalised
  over the whole slab (mean and variance over all 2¹⁵ entries, ε inside the rsqrt, elementwise gain and shift), passed
  through two 128 × 128 lower-triangular mixing layers along the token axis with a hardswish between them, and added
  back to the normalised slab.

  The kernel treats sixteen slabs per grid point, in the [tokens, features] layout throughout: sums along the lanes and
  then down the rows times the word 2⁻¹⁵, two matrix products M · v into a zero accumulator, bias columns broadcast along
  the lanes. The reference takes the mean as a quotient by 32768 of a sum over both axes at once, transposes every slab,
  contracts the token axis as v · Mᵀ with the bias as a row, and transposes back. Over the extended reals the two are one
  function of the seven arguments, `Spec.G` (Proof/Spec.lean): a quotient by 2¹⁵ is the product with 2⁻¹⁵ at every
  extended real, a sum over a slab is the sum of its rows' sums, the zero a sum starts from adds nothing, the products of
  a contraction commute, and a change of float format is the identity. No law used needs the entries to be finite, so the
  precondition is never opened.

  Kernel side: Proof/Row.lean (one copy of the loop body as one function), Proof/RowValue.lean (that function at an
  index), Proof/Block.lean (the sixteen stores as tiles of one function of the block's index), Proof/KernelArray.lean
  (the 32 blocks tile the array), Proof/KernelRun.lean (the reshapes and the triangular parts around the call; the run).
  Reference side: Proof/RefValue.lean over the generated reading of the reference's operations. The three frames are
  the generated ones; the idealization rewrote nothing, so `preserves` asks nothing.
-/
import proofs.«120767_j6347961664093_1_alg».proof.Defs
import proofs.«120767_j6347961664093_1_alg».proof.Proof.Gen.Kernel
import proofs.«120767_j6347961664093_1_alg».proof.Proof.Gen.Kernel.Skeleton
import proofs.«120767_j6347961664093_1_alg».proof.Proof.Gen.Kernel.Launch
import proofs.«120767_j6347961664093_1_alg».proof.Proof.Gen.Kernel.Points
import proofs.«120767_j6347961664093_1_alg».proof.Proof.Gen.Kernel.Frame
import proofs.«120767_j6347961664093_1_alg».proof.Proof.Gen.KernelIdeal
import proofs.«120767_j6347961664093_1_alg».proof.Proof.Gen.KernelIdeal.Skeleton
import proofs.«120767_j6347961664093_1_alg».proof.Proof.Gen.KernelIdeal.Launch
import proofs.«120767_j6347961664093_1_alg».proof.Proof.Gen.KernelIdeal.Points
import proofs.«120767_j6347961664093_1_alg».proof.Proof.Gen.KernelIdeal.Frame
import proofs.«120767_j6347961664093_1_alg».proof.Proof.Gen.ReferenceIdeal
import proofs.«120767_j6347961664093_1_alg».proof.Proof.Gen.Pre_finite_inputs
import proofs.«120767_j6347961664093_1_alg».proof.Proof.Gen.ReferenceIdeal.Run
import proofs.«120767_j6347961664093_1_alg».proof.Proof.Gen.ReferenceIdeal.Read
import proofs.«120767_j6347961664093_1_alg».proof.Proof.KernelRun
import proofs.«120767_j6347961664093_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs take the lower-triangular part of a mixing matrix by the same operations. -/
theorem tril_first (W : FVec Ideal Cert.KernelIdeal.S128x128 .f32) :
    Cert.ReferenceIdeal.Read.val_main_v25 (F := Ideal) W = Cert.Mixer.tril W := rfl

theorem tril_second (W : FVec Ideal Cert.KernelIdeal.S128x128 .f32) :
    Cert.ReferenceIdeal.Read.val_main_v26 (F := Ideal) W = Cert.Mixer.tril W := rfl

/-- From memories agreeing on the arguments both idealized programs end with their result at `Spec.G` of the
    arguments, the matrices through `tril`. -/
theorem algebraic : Cert.algebraic_KernelIdeal_ReferenceIdeal := by
  intro m ρ m' ρ' _ hagree
  refine ⟨_, Cert.Mixer.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v42_eq, Cert.Mixer.Ref.ref_eq_G, tril_first, tril_second, h0, h1, h2, h3, h4, h5, h6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
